-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x160x2048 : Shape := ⟨3, ![64, 160, 2048]⟩
abbrev S64x160x1024 : Shape := ⟨3, ![64, 160, 1024]⟩
abbrev S64x16x2048 : Shape := ⟨3, ![64, 16, 2048]⟩
abbrev S64x8x2048 : Shape := ⟨3, ![64, 8, 2048]⟩
abbrev S64x344 : Shape := ⟨2, ![64, 344]⟩
abbrev S2048x768 : Shape := ⟨2, ![2048, 768]⟩
abbrev S768 : Shape := ⟨1, ![768]⟩
abbrev S1024x768 : Shape := ⟨2, ![1024, 768]⟩
abbrev S512x768 : Shape := ⟨2, ![512, 768]⟩
abbrev S_ : Shape := ⟨0, ![]⟩

class Facts : Prop where
  bcast_S_S64x160x2048 : S_.BroadcastsInDim S64x160x2048 (![] : Fin 0 → Fin S64x160x2048.rank)
  reducesTo_S64x160x2048_S_d0_1_2 : S64x160x2048.ReducesTo [0, 1, 2] S_
  h_S_ : 0 < S_.numel
  bcast_S_S64x160x1024 : S_.BroadcastsInDim S64x160x1024 (![] : Fin 0 → Fin S64x160x1024.rank)
  reducesTo_S64x160x1024_S_d0_1_2 : S64x160x1024.ReducesTo [0, 1, 2] S_
  bcast_S_S64x16x2048 : S_.BroadcastsInDim S64x16x2048 (![] : Fin 0 → Fin S64x16x2048.rank)
  reducesTo_S64x16x2048_S_d0_1_2 : S64x16x2048.ReducesTo [0, 1, 2] S_
  bcast_S_S64x8x2048 : S_.BroadcastsInDim S64x8x2048 (![] : Fin 0 → Fin S64x8x2048.rank)
  reducesTo_S64x8x2048_S_d0_1_2 : S64x8x2048.ReducesTo [0, 1, 2] S_
  bcast_S_S2048x768 : S_.BroadcastsInDim S2048x768 (![] : Fin 0 → Fin S2048x768.rank)
  reducesTo_S2048x768_S_d0_1 : S2048x768.ReducesTo [0, 1] S_
  bcast_S_S768 : S_.BroadcastsInDim S768 (![] : Fin 0 → Fin S768.rank)
  reducesTo_S768_S_d0 : S768.ReducesTo [0] S_
  bcast_S_S1024x768 : S_.BroadcastsInDim S1024x768 (![] : Fin 0 → Fin S1024x768.rank)
  reducesTo_S1024x768_S_d0_1 : S1024x768.ReducesTo [0, 1] S_
  bcast_S_S512x768 : S_.BroadcastsInDim S512x768 (![] : Fin 0 → Fin S512x768.rank)
  reducesTo_S512x768_S_d0_1 : S512x768.ReducesTo [0, 1] S_
  bcast_S_S64x344 : S_.BroadcastsInDim S64x344 (![] : Fin 0 → Fin S64x344.rank)
  reducesTo_S64x344_S_d0_1 : S64x344.ReducesTo [0, 1] S_

variable [Facts]

def fn_part4 {F : FTy → Type} [FloatOps F] (main_arg4 : IVec S64x344 32) (main_arg15 : FVec F S768 .f32) (main_v63 : IVec S_ 1) (main_v67 : IVec S_ 1) : IVec S_ 1 :=
  let main_v68 : IVec S_ 1 := andi main_v63 main_v67
  let main_v69 : FVec F S768 .f32 := Host.absf main_arg15
  let main_cst_26 : FVec F S_ .f32 := constant S_ .f32 0x7F800000#32
  let main_v70 : FVec F S768 .f32 := broadcastInDim S768 ![] bcast_S_S768 main_cst_26
  let main_v71 : IVec S768 1 := cmpf .olt main_v69 main_v70
  let main_c_27 : IVec S_ 1 := constantI S_ 1 1#1
  let main_v72 : IVec S_ 1 := (fun x v => Host.reduce IntOp.andi x v reducesTo_S768_S_d0 h_S_) main_v71 main_c_27
  let main_v73 : IVec S_ 1 := andi main_v68 main_v72
  let main_c_28 : IVec S_ 32 := constantI S_ 32 0#32
  let main_v74 : IVec S64x344 32 := broadcastInDim S64x344 ![] bcast_S_S64x344 main_c_28
  let main_v75 : IVec S64x344 1 := cmpi .sge main_arg4 main_v74
  let main_c_29 : IVec S_ 1 := constantI S_ 1 1#1
  let main_v76 : IVec S_ 1 := (fun x v => Host.reduce IntOp.andi x v reducesTo_S64x344_S_d0_1 h_S_) main_v75 main_c_29
  let main_v77 : IVec S_ 1 := andi main_v73 main_v76
  main_v77

def fn_part3 {F : FTy → Type} [FloatOps F] (main_arg4 : IVec S64x344 32) (main_arg12 : FVec F S768 .f32) (main_arg13 : FVec F S512x768 .f32) (main_arg14 : FVec F S768 .f32) (main_arg15 : FVec F S768 .f32) (main_v48 : IVec S_ 1) (main_v49 : FVec F S2048x768 .f32) (main_v50 : FVec F S2048x768 .f32) : IVec S_ 1 :=
  let main_v51 : IVec S2048x768 1 := cmpf .olt main_v49 main_v50
  let main_c_19 : IVec S_ 1 := constantI S_ 1 1#1
  let main_v52 : IVec S_ 1 := (fun x v => Host.reduce IntOp.andi x v reducesTo_S2048x768_S_d0_1 h_S_) main_v51 main_c_19
  let main_v53 : IVec S_ 1 := andi main_v48 main_v52
  let main_v54 : FVec F S768 .f32 := Host.absf main_arg12
  let main_cst_20 : FVec F S_ .f32 := constant S_ .f32 0x7F800000#32
  let main_v55 : FVec F S768 .f32 := broadcastInDim S768 ![] bcast_S_S768 main_cst_20
  let main_v56 : IVec S768 1 := cmpf .olt main_v54 main_v55
  let main_c_21 : IVec S_ 1 := constantI S_ 1 1#1
  let main_v57 : IVec S_ 1 := (fun x v => Host.reduce IntOp.andi x v reducesTo_S768_S_d0 h_S_) main_v56 main_c_21
  let main_v58 : IVec S_ 1 := andi main_v53 main_v57
  let main_v59 : FVec F S512x768 .f32 := Host.absf main_arg13
  let main_cst_22 : FVec F S_ .f32 := constant S_ .f32 0x7F800000#32
  let main_v60 : FVec F S512x768 .f32 := broadcastInDim S512x768 ![] bcast_S_S512x768 main_cst_22
  let main_v61 : IVec S512x768 1 := cmpf .olt main_v59 main_v60
  let main_c_23 : IVec S_ 1 := constantI S_ 1 1#1
  let main_v62 : IVec S_ 1 := (fun x v => Host.reduce IntOp.andi x v reducesTo_S512x768_S_d0_1 h_S_) main_v61 main_c_23
  let main_v63 : IVec S_ 1 := andi main_v58 main_v62
  let main_v64 : FVec F S768 .f32 := Host.absf main_arg14
  let main_cst_24 : FVec F S_ .f32 := constant S_ .f32 0x7F800000#32
  let main_v65 : FVec F S768 .f32 := broadcastInDim S768 ![] bcast_S_S768 main_cst_24
  let main_v66 : IVec S768 1 := cmpf .olt main_v64 main_v65
  let main_c_25 : IVec S_ 1 := constantI S_ 1 1#1
  let main_v67 : IVec S_ 1 := (fun x v => Host.reduce IntOp.andi x v reducesTo_S768_S_d0 h_S_) main_v66 main_c_25
  fn_part4 (F := F) main_arg4 main_arg15 main_v63 main_v67

def fn_part2 {F : FTy → Type} [FloatOps F] (main_arg4 : IVec S64x344 32) (main_arg8 : FVec F S768 .f32) (main_arg9 : FVec F S2048x768 .f32) (main_arg10 : FVec F S768 .f32) (main_arg11 : FVec F S2048x768 .f32) (main_arg12 : FVec F S768 .f32) (main_arg13 : FVec F S512x768 .f32) (main_arg14 : FVec F S768 .f32) (main_arg15 : FVec F S768 .f32) (main_v33 : IVec S_ 1) : IVec S_ 1 :=
  let main_v34 : FVec F S768 .f32 := Host.absf main_arg8
  let main_cst_12 : FVec F S_ .f32 := constant S_ .f32 0x7F800000#32
  let main_v35 : FVec F S768 .f32 := broadcastInDim S768 ![] bcast_S_S768 main_cst_12
  let main_v36 : IVec S768 1 := cmpf .olt main_v34 main_v35
  let main_c_13 : IVec S_ 1 := constantI S_ 1 1#1
  let main_v37 : IVec S_ 1 := (fun x v => Host.reduce IntOp.andi x v reducesTo_S768_S_d0 h_S_) main_v36 main_c_13
  let main_v38 : IVec S_ 1 := andi main_v33 main_v37
  let main_v39 : FVec F S2048x768 .f32 := Host.absf main_arg9
  let main_cst_14 : FVec F S_ .f32 := constant S_ .f32 0x7F800000#32
  let main_v40 : FVec F S2048x768 .f32 := broadcastInDim S2048x768 ![] bcast_S_S2048x768 main_cst_14
  let main_v41 : IVec S2048x768 1 := cmpf .olt main_v39 main_v40
  let main_c_15 : IVec S_ 1 := constantI S_ 1 1#1
  let main_v42 : IVec S_ 1 := (fun x v => Host.reduce IntOp.andi x v reducesTo_S2048x768_S_d0_1 h_S_) main_v41 main_c_15
  let main_v43 : IVec S_ 1 := andi main_v38 main_v42
  let main_v44 : FVec F S768 .f32 := Host.absf main_arg10
  let main_cst_16 : FVec F S_ .f32 := constant S_ .f32 0x7F800000#32
  let main_v45 : FVec F S768 .f32 := broadcastInDim S768 ![] bcast_S_S768 main_cst_16
  let main_v46 : IVec S768 1 := cmpf .olt main_v44 main_v45
  let main_c_17 : IVec S_ 1 := constantI S_ 1 1#1
  let main_v47 : IVec S_ 1 := (fun x v => Host.reduce IntOp.andi x v reducesTo_S768_S_d0 h_S_) main_v46 main_c_17
  let main_v48 : IVec S_ 1 := andi main_v43 main_v47
  let main_v49 : FVec F S2048x768 .f32 := Host.absf main_arg11
  let main_cst_18 : FVec F S_ .f32 := constant S_ .f32 0x7F800000#32
  let main_v50 : FVec F S2048x768 .f32 := broadcastInDim S2048x768 ![] bcast_S_S2048x768 main_cst_18
  fn_part3 (F := F) main_arg4 main_arg12 main_arg13 main_arg14 main_arg15 main_v48 main_v49 main_v50

def fn_part1 {F : FTy → Type} [FloatOps F] (main_arg4 : IVec S64x344 32) (main_arg5 : FVec F S2048x768 .f32) (main_arg6 : FVec F S768 .f32) (main_arg7 : FVec F S1024x768 .f32) (main_arg8 : FVec F S768 .f32) (main_arg9 : FVec F S2048x768 .f32) (main_arg10 : FVec F S768 .f32) (main_arg11 : FVec F S2048x768 .f32) (main_arg12 : FVec F S768 .f32) (main_arg13 : FVec F S512x768 .f32) (main_arg14 : FVec F S768 .f32) (main_arg15 : FVec F S768 .f32) (main_v13 : IVec S_ 1) (main_v16 : IVec S64x8x2048 1) : IVec S_ 1 :=
  let main_c_5 : IVec S_ 1 := constantI S_ 1 1#1
  let main_v17 : IVec S_ 1 := (fun x v => Host.reduce IntOp.andi x v reducesTo_S64x8x2048_S_d0_1_2 h_S_) main_v16 main_c_5
  let main_v18 : IVec S_ 1 := andi main_v13 main_v17
  let main_v19 : FVec F S2048x768 .f32 := Host.absf main_arg5
  let main_cst_6 : FVec F S_ .f32 := constant S_ .f32 0x7F800000#32
  let main_v20 : FVec F S2048x768 .f32 := broadcastInDim S2048x768 ![] bcast_S_S2048x768 main_cst_6
  let main_v21 : IVec S2048x768 1 := cmpf .olt main_v19 main_v20
  let main_c_7 : IVec S_ 1 := constantI S_ 1 1#1
  let main_v22 : IVec S_ 1 := (fun x v => Host.reduce IntOp.andi x v reducesTo_S2048x768_S_d0_1 h_S_) main_v21 main_c_7
  let main_v23 : IVec S_ 1 := andi main_v18 main_v22
  let main_v24 : FVec F S768 .f32 := Host.absf main_arg6
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  let main_v29 : FVec F S1024x768 .f32 := Host.absf main_arg7
  let main_cst_10 : FVec F S_ .f32 := constant S_ .f32 0x7F800000#32
  let main_v30 : FVec F S1024x768 .f32 := broadcastInDim S1024x768 ![] bcast_S_S1024x768 main_cst_10
  let main_v31 : IVec S1024x768 1 := cmpf .olt main_v29 main_v30
  let main_c_11 : IVec S_ 1 := constantI S_ 1 1#1
  let main_v32 : IVec S_ 1 := (fun x v => Host.reduce IntOp.andi x v reducesTo_S1024x768_S_d0_1 h_S_) main_v31 main_c_11
  let main_v33 : IVec S_ 1 := andi main_v28 main_v32
  fn_part2 (F := F) main_arg4 main_arg8 main_arg9 main_arg10 main_arg11 main_arg12 main_arg13 main_arg14 main_arg15 main_v33

def fn {F : FTy → Type} [FloatOps F] (main_arg0 : FVec F S64x160x2048 .f32) (main_arg1 : FVec F S64x160x1024 .f32) (main_arg2 : FVec F S64x16x2048 .f32) (main_arg3 : FVec F S64x8x2048 .f32) (main_arg4 : IVec S64x344 32) (main_arg5 : FVec F S2048x768 .f32) (main_arg6 : FVec F S768 .f32) (main_arg7 : FVec F S1024x768 .f32) (main_arg8 : FVec F S768 .f32) (main_arg9 : FVec F S2048x768 .f32) (main_arg10 : FVec F S768 .f32) (main_arg11 : FVec F S2048x768 .f32) (main_arg12 : FVec F S768 .f32) (main_arg13 : FVec F S512x768 .f32) (main_arg14 : FVec F S768 .f32) (main_arg15 : FVec F S768 .f32) : IVec S_ 1 :=
  let main_v0 : FVec F S64x160x2048 .f32 := Host.absf main_arg0
  let main_cst : FVec F S_ .f32 := constant S_ .f32 0x7F800000#32
  let main_v1 : FVec F S64x160x2048 .f32 := broadcastInDim S64x160x2048 ![] bcast_S_S64x160x2048 main_cst
  let main_v2 : IVec S64x160x2048 1 := cmpf .olt main_v0 main_v1
  let main_c : IVec S_ 1 := constantI S_ 1 1#1
  let main_v3 : IVec S_ 1 := (fun x v => Host.reduce IntOp.andi x v reducesTo_S64x160x2048_S_d0_1_2 h_S_) main_v2 main_c
  let main_v4 : FVec F S64x160x1024 .f32 := Host.absf main_arg1
  let main_cst_0 : FVec F S_ .f32 := constant S_ .f32 0x7F800000#32
  let main_v5 : FVec F S64x160x1024 .f32 := broadcastInDim S64x160x1024 ![] bcast_S_S64x160x1024 main_cst_0
  let main_v6 : IVec S64x160x1024 1 := cmpf .olt main_v4 main_v5
  let main_c_1 : IVec S_ 1 := constantI S_ 1 1#1
  let main_v7 : IVec S_ 1 := (fun x v => Host.reduce IntOp.andi x v reducesTo_S64x160x1024_S_d0_1_2 h_S_) main_v6 main_c_1
  let main_v8 : IVec S_ 1 := andi main_v3 main_v7
  let main_v9 : FVec F S64x16x2048 .f32 := Host.absf main_arg2
  let main_cst_2 : FVec F S_ .f32 := constant S_ .f32 0x7F800000#32
  let main_v10 : FVec F S64x16x2048 .f32 := broadcastInDim S64x16x2048 ![] bcast_S_S64x16x2048 main_cst_2
  let main_v11 : IVec S64x16x2048 1 := cmpf .olt main_v9 main_v10
  let main_c_3 : IVec S_ 1 := constantI S_ 1 1#1
  let main_v12 : IVec S_ 1 := (fun x v => Host.reduce IntOp.andi x v reducesTo_S64x16x2048_S_d0_1_2 h_S_) main_v11 main_c_3
  let main_v13 : IVec S_ 1 := andi main_v8 main_v12
  let main_v14 : FVec F S64x8x2048 .f32 := Host.absf main_arg3
  let main_cst_4 : FVec F S_ .f32 := constant S_ .f32 0x7F800000#32
  let main_v15 : FVec F S64x8x2048 .f32 := broadcastInDim S64x8x2048 ![] bcast_S_S64x8x2048 main_cst_4
  let main_v16 : IVec S64x8x2048 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S64x160x2048 : Shape := ⟨3, ![64, 160, 2048]⟩
abbrev S64x160x1024 : Shape := ⟨3, ![64, 160, 1024]⟩
abbrev S64x16x2048 : Shape := ⟨3, ![64, 16, 2048]⟩
abbrev S64x8x2048 : Shape := ⟨3, ![64, 8, 2048]⟩
abbrev S64x344 : Shape := ⟨2, ![64, 344]⟩
abbrev S2048x768 : Shape := ⟨2, ![2048, 768]⟩
abbrev S768 : Shape := ⟨1, ![768]⟩
abbrev S1024x768 : Shape := ⟨2, ![1024, 768]⟩
abbrev S512x768 : Shape := ⟨2, ![512, 768]⟩
abbrev S_ : Shape := ⟨0, ![]⟩
abbrev S64x344x1 : Shape := ⟨3, ![64, 344, 1]⟩
abbrev S64x344x768 : Shape := ⟨3, ![64, 344, 768]⟩
abbrev S1x160x2048 : Shape := ⟨3, ![1, 160, 2048]⟩
abbrev S1x160x1024 : Shape := ⟨3, ![1, 160, 1024]⟩
abbrev S1x16x2048 : Shape := ⟨3, ![1, 16, 2048]⟩
abbrev S1x8x2048 : Shape := ⟨3, ![1, 8, 2048]⟩
abbrev S1x344x1 : Shape := ⟨3, ![1, 344, 1]⟩
abbrev S1x344x768 : Shape := ⟨3, ![1, 344, 768]⟩
abbrev S344x1 : Shape := ⟨2, ![344, 1]⟩
abbrev S344x512 : Shape := ⟨2, ![344, 512]⟩
abbrev S344x768 : Shape := ⟨2, ![344, 768]⟩
abbrev S160x2048 : Shape := ⟨2, ![160, 2048]⟩
abbrev S160x768 : Shape := ⟨2, ![160, 768]⟩
abbrev S1x768 : Shape := ⟨2, ![1, 768]⟩
abbrev S160 : Shape := ⟨1, ![160]⟩
abbrev S160x1 : Shape := ⟨2, ![160, 1]⟩
abbrev S1x160x768 : Shape := ⟨3, ![1, 160, 768]⟩
abbrev S160x1024 : Shape := ⟨2, ![160, 1024]⟩
abbrev S16x2048 : Shape := ⟨2, ![16, 2048]⟩
abbrev S16x768 : Shape := ⟨2, ![16, 768]⟩
abbrev S16 : Shape := ⟨1, ![16]⟩
abbrev S16x1 : Shape := ⟨2, ![16, 1]⟩
abbrev S1x16x768 : Shape := ⟨3, ![1, 16, 768]⟩
abbrev S8x2048 : Shape := ⟨2, ![8, 2048]⟩
abbrev S8x768 : Shape := ⟨2, ![8, 768]⟩
abbrev S8 : Shape := ⟨1, ![8]⟩
abbrev S8x1 : Shape := ⟨2, ![8, 1]⟩
abbrev S1x8x768 : Shape := ⟨3, ![1, 8, 768]⟩

abbrev nBuf : Space → Nat
  | .hbm => 33
  | .vmem => 23
  | .smem => 0
  | _ => 0

abbrev bufTy : (tb : Table) → Fin (tcTables nBuf tb) → BufTy
  | .hbm, ⟨0, _⟩ => ⟨S64x160x2048, .f32⟩
  | .hbm, ⟨1, _⟩ => ⟨S64x160x1024, .f32⟩
  | .hbm, ⟨2, _⟩ => ⟨S64x16x2048, .f32⟩
  | .hbm, ⟨3, _⟩ => ⟨S64x8x2048, .f32⟩
  | .hbm, ⟨4, _⟩ => ⟨S64x344, .i32⟩
  | .hbm, ⟨5, _⟩ => ⟨S2048x768, .f32⟩
  | .hbm, ⟨6, _⟩ => ⟨S768, .f32⟩
  | .hbm, ⟨7, _⟩ => ⟨S1024x768, .f32⟩
  | .hbm, ⟨8, _⟩ => ⟨S768, .f32⟩
  | .hbm, ⟨9, _⟩ => ⟨S2048x768, .f32⟩
  | .hbm, ⟨10, _⟩ => ⟨S768, .f32⟩
  | .hbm, ⟨11, _⟩ => ⟨S2048x768, .f32⟩
  | .hbm, ⟨12, _⟩ => ⟨S768, .f32⟩
  | .hbm, ⟨13, _⟩ => ⟨S512x768, .f32⟩
  | .hbm, ⟨14, _⟩ => ⟨S768, .f32⟩
  | .hbm, ⟨15, _⟩ => ⟨S768, .f32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S64x344, .i32⟩
  | .hbm, ⟨20, _⟩ => ⟨S64x344, .i32⟩
  | .hbm, ⟨21, _⟩ => ⟨S_, .i32⟩
  | .hbm, ⟨22, _⟩ => ⟨S64x344, .i32⟩
  | .hbm, ⟨23, _⟩ => ⟨S64x344, .i32⟩
  | .hbm, ⟨24, _⟩ => ⟨S64x344x1, .i32⟩
  | .hbm, ⟨25, _⟩ => ⟨S2048x768, .bf16⟩
  | .hbm, ⟨26, _⟩ => ⟨S1024x768, .bf16⟩
  | .hbm, ⟨27, _⟩ => ⟨S2048x768, .bf16⟩
  | .hbm, ⟨28, _⟩ => ⟨S2048x768, .bf16⟩
  | .hbm, ⟨29, _⟩ => ⟨S512x768, .bf16⟩
  | .hbm, ⟨30, _⟩ => ⟨S64x344x768, .f32⟩
  | .hbm, ⟨31, _⟩ => ⟨S_, .i1⟩
  | .hbm, ⟨32, _⟩ => ⟨S64x344, .i1⟩
  | .local _ .vmem, ⟨0, _⟩ => ⟨S1x160x2048, .f32⟩
  | .local _ .vmem, ⟨1, _⟩ => ⟨S1x160x2048, .f32⟩
  | .local _ .vmem, ⟨2, _⟩ => ⟨S1x160x1024, .f32⟩
  | .local _ .vmem, ⟨3, _⟩ => ⟨S1x160x1024, .f32⟩
  | .local _ .vmem, ⟨4, _⟩ => ⟨S1x16x2048, .f32⟩
  | .local _ .vmem, ⟨5, _⟩ => ⟨S1x16x2048, .f32⟩
  | .local _ .vmem, ⟨6, _⟩ => ⟨S1x8x2048, .f32⟩
  | .local _ .vmem, ⟨7, _⟩ => ⟨S1x8x2048, .f32⟩
  | .local _ .vmem, ⟨8, _⟩ => ⟨S1x344x1, .i32⟩
  | .local _ .vmem, ⟨9, _⟩ => ⟨S1x344x1, .i32⟩
  | .local _ .vmem, ⟨10, _⟩ => ⟨S2048x768, .bf16⟩
  | .local _ .vmem, ⟨11, _⟩ => ⟨S768, .f32⟩
  | .local _ .vmem, ⟨12, _⟩ => ⟨S1024x768, .bf16⟩
  | .local _ .vmem, ⟨13, _⟩ => ⟨S768, .f32⟩
  | .local _ .vmem, ⟨14, _⟩ => ⟨S2048x768, .bf16⟩
  | .local _ .vmem, ⟨15, _⟩ => ⟨S768, .f32⟩
  | .local _ .vmem, ⟨16, _⟩ => ⟨S2048x768, .bf16⟩
  | .local _ .vmem, ⟨17, _⟩ => ⟨S768, .f32⟩
  | .local _ .vmem, ⟨18, _⟩ => ⟨S512x768, .bf16⟩
  | .local _ .vmem, ⟨19, _⟩ => ⟨S768, .f32⟩
  | .local _ .vmem, ⟨20, _⟩ => ⟨S768, .f32⟩
  | .local _ .vmem, ⟨21, _⟩ => ⟨S1x344x768, .f32⟩
  | .local _ .vmem, ⟨22, _⟩ => ⟨S1x344x768, .f32⟩
  | _, _ => ⟨S64x160x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_c_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_c_1 : Ref sig .tc := ⟨.hbm, 31, rfl⟩
abbrev main_v8 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg16_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem16_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x160x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x160x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x344x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x768 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x768 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x768 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S768 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S768 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S1x344x768 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  bcast_S_S64x344 : S_.BroadcastsInDim S64x344 (![] : Fin 0 → Fin S64x344.rank)
  bcast_S64x344_S64x344x1_0_1 : S64x344.BroadcastsInDim S64x344x1 (![0, 1] : Fin 2 → Fin S64x344x1.rank)
  bitsLt_bf16_f32 : FTy.bits .bf16 < FTy.bits .f32
  inb_S1x344x1_S1x344x1_0_0_0 : ∀ a, (![0, 0, 0] : Fin 3 → Nat) a + S1x344x1.size a ≤ S1x344x1.size a
  h_S1x344x1 : 0 < S1x344x1.numel
  shapeCasts_S1x344x1_S344x1 : S1x344x1.ShapeCasts S344x1
  iota_S344x512_d1_w32 : S344x512.Iotas .tc 32 [1]
  broadcasts_S344x1_S344x512 : S344x1.Broadcasts S344x512
  natLt_1_32 : 1 < 32
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S768_S768_0 : ∀ a, (![0] : Fin 1 → Nat) a + S768.size a ≤ S768.size a
  h_S768 : 0 < S768.numel
  inb_S1x160x2048_S1x160x2048_0_0_0 : ∀ a, (![0, 0, 0] : Fin 3 → Nat) a + S1x160x2048.size a ≤ S1x160x2048.size a
  h_S1x160x2048 : 0 < S1x160x2048.numel
  shapeCasts_S1x160x2048_S160x2048 : S1x160x2048.ShapeCasts S160x2048
  inb_S2048x768_S2048x768_0_0 : ∀ a, (![0, 0] : Fin 2 → Nat) a + S2048x768.size a ≤ S2048x768.size a
  h_S2048x768 : 0 < S2048x768.numel
  shapeCasts_S2048x768_S2048x768 : S2048x768.ShapeCasts S2048x768
  shapeCasts_S768_S1x768 : S768.ShapeCasts S1x768
  broadcasts_S1x768_S160x768 : S1x768.Broadcasts S160x768
  slices_S344x768_o0_0_S160x768 : S344x768.Slices ![0, 0] S160x768
  reduces_S160x768_S160 : S160x768.Reduces [1] S160
  shapeCasts_S160_S160x1 : S160.ShapeCasts S160x1
  broadcasts_S160x1_S160x768 : S160x1.Broadcasts S160x768
  inb_S1x344x768_S1x160x768_0_0_0 : ∀ a, (![0, 0, 0] : Fin 3 → Nat) a + S1x160x768.size a ≤ S1x344x768.size a
  h_S1x160x768 : 0 < S1x160x768.numel
  shapeCasts_S1x160x768_S160x768 : S1x160x768.ShapeCasts S160x768
  shapeCasts_S160x768_S1x160x768 : S160x768.ShapeCasts S1x160x768
  inb_S1x160x1024_S1x160x1024_0_0_0 : ∀ a, (![0, 0, 0] : Fin 3 → Nat) a + S1x160x1024.size a ≤ S1x160x1024.size a
  h_S1x160x1024 : 0 < S1x160x1024.numel
  shapeCasts_S1x160x1024_S160x1024 : S1x160x1024.ShapeCasts S160x1024
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  slices_S344x768_o160_0_S160x768 : S344x768.Slices ![160, 0] S160x768
  inb_S1x344x768_S1x160x768_0_160_0 : ∀ a, (![0, 160, 0] : Fin 3 → Nat) a + S1x160x768.size a ≤ S1x344x768.size a
  inb_S1x16x2048_S1x16x2048_0_0_0 : ∀ a, (![0, 0, 0] : Fin 3 → Nat) a + S1x16x2048.size a ≤ S1x16x2048.size a
  h_S1x16x2048 : 0 < S1x16x2048.numel
  shapeCasts_S1x16x2048_S16x2048 : S1x16x2048.ShapeCasts S16x2048
  broadcasts_S1x768_S16x768 : S1x768.Broadcasts S16x768
  slices_S344x768_o320_0_S16x768 : S344x768.Slices ![320, 0] S16x768
  reduces_S16x768_S16 : S16x768.Reduces [1] S16
  shapeCasts_S16_S16x1 : S16.ShapeCasts S16x1
  broadcasts_S16x1_S16x768 : S16x1.Broadcasts S16x768
  inb_S1x344x768_S1x16x768_0_320_0 : ∀ a, (![0, 320, 0] : Fin 3 → Nat) a + S1x16x768.size a ≤ S1x344x768.size a
  h_S1x16x768 : 0 < S1x16x768.numel
  shapeCasts_S1x16x768_S16x768 : S1x16x768.ShapeCasts S16x768
  shapeCasts_S16x768_S1x16x768 : S16x768.ShapeCasts S1x16x768
  inb_S1x8x2048_S1x8x2048_0_0_0 : ∀ a, (![0, 0, 0] : Fin 3 → Nat) a + S1x8x2048.size a ≤ S1x8x2048.size a
  h_S1x8x2048 : 0 < S1x8x2048.numel
  shapeCasts_S1x8x2048_S8x2048 : S1x8x2048.ShapeCasts S8x2048
  broadcasts_S1x768_S8x768 : S1x768.Broadcasts S8x768
  slices_S344x768_o336_0_S8x768 : S344x768.Slices ![336, 0] S8x768
  reduces_S8x768_S8 : S8x768.Reduces [1] S8
  shapeCasts_S8_S8x1 : S8.ShapeCasts S8x1
  broadcasts_S8x1_S8x768 : S8x1.Broadcasts S8x768
  inb_S1x344x768_S1x8x768_0_336_0 : ∀ a, (![0, 336, 0] : Fin 3 → Nat) a + S1x8x768.size a ≤ S1x344x768.size a
  h_S1x8x768 : 0 < S1x8x768.numel
  shapeCasts_S1x8x768_S8x768 : S1x8x768.ShapeCasts S8x768
  shapeCasts_S8x768_S1x8x768 : S8x768.ShapeCasts S1x8x768
  dot_S344x512_S512x768_S344x768_1_0_0_1_n_n_wf : DotDims.WF S344x512 S512x768 S344x768 [1] [0] [0] [1] [] []
  dot_S160x2048_S2048x768_S160x768_1_0_0_1_n_n_wf : DotDims.WF S160x2048 S2048x768 S160x768 [1] [0] [0] [1] [] []
  dot_S160x1024_S1024x768_S160x768_1_0_0_1_n_n_wf : DotDims.WF S160x1024 S1024x768 S160x768 [1] [0] [0] [1] [] []
  dot_S16x2048_S2048x768_S16x768_1_0_0_1_n_n_wf : DotDims.WF S16x2048 S2048x768 S16x768 [1] [0] [0] [1] [] []
  dot_S8x2048_S2048x768_S8x768_1_0_0_1_n_n_wf : DotDims.WF S8x2048 S2048x768 S8x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x160x2048.size a ≤ S64x160x2048.size a
  hwx0_0 : ∀ i : grid0.Coords, EltTy.bits .f32 = 32 ∨ (Rect.block (s := S64x160x2048) S1x160x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x160x1024.size a ≤ S64x160x1024.size a
  hwx0_1 : ∀ i : grid0.Coords, EltTy.bits .f32 = 32 ∨ (Rect.block (s := S64x160x1024) S1x160x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x2048.size a ≤ S64x16x2048.size a
  hwx0_2 : ∀ i : grid0.Coords, EltTy.bits .f32 = 32 ∨ (Rect.block (s := S64x16x2048) S1x16x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x2048.size a ≤ S64x8x2048.size a
  hwx0_3 : ∀ i : grid0.Coords, EltTy.bits .f32 = 32 ∨ (Rect.block (s := S64x8x2048) S1x8x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x344x1.size a ≤ S64x344x1.size a
  hwx0_4 : ∀ i : grid0.Coords, EltTy.bits .i32 = 32 ∨ (Rect.block (s := S64x344x1) S1x344x1.size (cc0_transform_4 i) (hinb0_4 i)).WholeWords (EltTy.packing .i32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x768.size a ≤ S2048x768.size a
  hwx0_5 : ∀ i : grid0.Coords, EltTy.bits .bf16 = 32 ∨ (Rect.block (s := S2048x768) S2048x768.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S768.size a ≤ S768.size a
  hwx0_6 : ∀ i : grid0.Coords, EltTy.bits .f32 = 32 ∨ (Rect.block (s := S768) S768.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x768.size a ≤ S1024x768.size a
  hwx0_7 : ∀ i : grid0.Coords, EltTy.bits .bf16 = 32 ∨ (Rect.block (s := S1024x768) S1024x768.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S768.size a ≤ S768.size a
  hwx0_8 : ∀ i : grid0.Coords, EltTy.bits .f32 = 32 ∨ (Rect.block (s := S768) S768.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2048x768.size a ≤ S2048x768.size a
  hwx0_9 : ∀ i : grid0.Coords, EltTy.bits .bf16 = 32 ∨ (Rect.block (s := S2048x768) S2048x768.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S768.size a ≤ S768.size a
  hwx0_10 : ∀ i : grid0.Coords, EltTy.bits .f32 = 32 ∨ (Rect.block (s := S768) S768.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S2048x768.size a ≤ S2048x768.size a
  hwx0_11 : ∀ i : grid0.Coords, EltTy.bits .bf16 = 32 ∨ (Rect.block (s := S2048x768) S2048x768.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S768.size a ≤ S768.size a
  hwx0_12 : ∀ i : grid0.Coords, EltTy.bits .f32 = 32 ∨ (Rect.block (s := S768) S768.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512x768.size a ≤ S512x768.size a
  hwx0_13 : ∀ i : grid0.Coords, EltTy.bits .bf16 = 32 ∨ (Rect.block (s := S512x768) S512x768.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S768.size a ≤ S768.size a
  hwx0_14 : ∀ i : grid0.Coords, EltTy.bits .f32 = 32 ∨ (Rect.block (s := S768) S768.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S768.size a ≤ S768.size a
  hwx0_15 : ∀ i : grid0.Coords, EltTy.bits .f32 = 32 ∨ (Rect.block (s := S768) S768.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1x344x768.size a ≤ S64x344x768.size a
  hwx0_16 : ∀ i : grid0.Coords, EltTy.bits .f32 = 32 ∨ (Rect.block (s := S64x344x768) S1x344x768.size (cc0_transform_16 i) (hinb0_16 i)).WholeWords (EltTy.packing .f32)

variable [Facts₀]

def dot_S344x512_S512x768_S344x768_1_0_0_1_n_n : DotDims S344x512 S512x768 S344x768 where
  lhsContracting := [1]
  rhsContracting := [0]
  lhsNonContracting := [0]
  rhsNonContracting := [1]
  lhsBatch := []
  rhsBatch := []
  wf := dot_S344x512_S512x768_S344x768_1_0_0_1_n_n_wf
def dot_S160x2048_S2048x768_S160x768_1_0_0_1_n_n : DotDims S160x2048 S2048x768 S160x768 where
  lhsContracting := [1]
  rhsContracting := [0]
  lhsNonContracting := [0]
  rhsNonContracting := [1]
  lhsBatch := []
  rhsBatch := []
  wf := dot_S160x2048_S2048x768_S160x768_1_0_0_1_n_n_wf
def dot_S160x1024_S1024x768_S160x768_1_0_0_1_n_n : DotDims S160x1024 S1024x768 S160x768 where
  lhsContracting := [1]
  rhsContracting := [0]
  lhsNonContracting := [0]
  rhsNonContracting := [1]
  lhsBatch := []
  rhsBatch := []
  wf := dot_S160x1024_S1024x768_S160x768_1_0_0_1_n_n_wf
def dot_S16x2048_S2048x768_S16x768_1_0_0_1_n_n : DotDims S16x2048 S2048x768 S16x768 where
  lhsContracting := [1]
  rhsContracting := [0]
  lhsNonContracting := [0]
  rhsNonContracting := [1]
  lhsBatch := []
  rhsBatch := []
  wf := dot_S16x2048_S2048x768_S16x768_1_0_0_1_n_n_wf
def dot_S8x2048_S2048x768_S8x768_1_0_0_1_n_n : DotDims S8x2048 S2048x768 S8x768 where
  lhsContracting := [1]
  rhsContracting := [0]
  lhsNonContracting := [0]
  rhsNonContracting := [1]
  lhsBatch := []
  rhsBatch := []
  wf := dot_S8x2048_S2048x768_S8x768_1_0_0_1_n_n_wf

abbrev win0_0 : Pipeline.Window sig grid0 :=
  Pipeline.Window.ofSpec (Memref.whole main_arg0) S1x160x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x160x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x16x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x8x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x344x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S2048x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1024x768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S768.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S2048x768.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S768.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v5) S2048x768.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S768.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v6) S512x768.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S768.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S768.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v7) S1x344x768.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S64x160x2048 : Shape := ⟨3, ![64, 160, 2048]⟩
abbrev S64x160x1024 : Shape := ⟨3, ![64, 160, 1024]⟩
abbrev S64x16x2048 : Shape := ⟨3, ![64, 16, 2048]⟩
abbrev S64x8x2048 : Shape := ⟨3, ![64, 8, 2048]⟩
abbrev S64x344 : Shape := ⟨2, ![64, 344]⟩
abbrev S2048x768 : Shape := ⟨2, ![2048, 768]⟩
abbrev S768 : Shape := ⟨1, ![768]⟩
abbrev S1024x768 : Shape := ⟨2, ![1024, 768]⟩
abbrev S512x768 : Shape := ⟨2, ![512, 768]⟩
abbrev S64x160x768 : Shape := ⟨3, ![64, 160, 768]⟩
abbrev S1x1x768 : Shape := ⟨3, ![1, 1, 768]⟩
abbrev S64x16x768 : Shape := ⟨3, ![64, 16, 768]⟩
abbrev S64x8x768 : Shape := ⟨3, ![64, 8, 768]⟩
abbrev S64x344x768 : Shape := ⟨3, ![64, 344, 768]⟩
abbrev S_ : Shape := ⟨0, ![]⟩
abbrev S64x344x1 : Shape := ⟨3, ![64, 344, 1]⟩

abbrev nBuf : Space → Nat
  | .hbm => 74
  | .vmem => 0
  | .smem => 0
  | _ => 0

abbrev bufTy : (tb : Table) → Fin (tcTables nBuf tb) → BufTy
  | .hbm, ⟨0, _⟩ => ⟨S64x160x2048, .f32⟩
  | .hbm, ⟨1, _⟩ => ⟨S64x160x1024, .f32⟩
  | .hbm, ⟨2, _⟩ => ⟨S64x16x2048, .f32⟩
  | .hbm, ⟨3, _⟩ => ⟨S64x8x2048, .f32⟩
  | .hbm, ⟨4, _⟩ => ⟨S64x344, .i32⟩
  | .hbm, ⟨5, _⟩ => ⟨S2048x768, .f32⟩
  | .hbm, ⟨6, _⟩ => ⟨S768, .f32⟩
  | .hbm, ⟨7, _⟩ => ⟨S1024x768, .f32⟩
  | .hbm, ⟨8, _⟩ => ⟨S768, .f32⟩
  | .hbm, ⟨9, _⟩ => ⟨S2048x768, .f32⟩
  | .hbm, ⟨10, _⟩ => ⟨S768, .f32⟩
  | .hbm, ⟨11, _⟩ => ⟨S2048x768, .f32⟩
  | .hbm, ⟨12, _⟩ => ⟨S768, .f32⟩
  | .hbm, ⟨13, _⟩ => ⟨S512x768, .f32⟩
  | .hbm, ⟨14, _⟩ => ⟨S768, .f32⟩
  | .hbm, ⟨15, _⟩ => ⟨S768, .f32⟩
  | .hbm, ⟨16, _⟩ => ⟨S64x160x768, .f32⟩
  | .hbm, ⟨17, _⟩ => ⟨S1x1x768, .f32⟩
  | .hbm, ⟨18, _⟩ => ⟨S64x160x768, .f32⟩
  | .hbm, ⟨19, _⟩ => ⟨S64x160x768, .f32⟩
  | .hbm, ⟨20, _⟩ => ⟨S64x160x768, .f32⟩
  | .hbm, ⟨21, _⟩ => ⟨S1x1x768, .f32⟩
  | .hbm, ⟨22, _⟩ => ⟨S64x160x768, .f32⟩
  | .hbm, ⟨23, _⟩ => ⟨S64x160x768, .f32⟩
  | .hbm, ⟨24, _⟩ => ⟨S64x16x768, .f32⟩
  | .hbm, ⟨25, _⟩ => ⟨S1x1x768, .f32⟩
  | .hbm, ⟨26, _⟩ => ⟨S64x16x768, .f32⟩
  | .hbm, ⟨27, _⟩ => ⟨S64x16x768, .f32⟩
  | .hbm, ⟨28, _⟩ => ⟨S64x8x768, .f32⟩
  | .hbm, ⟨29, _⟩ => ⟨S1x1x768, .f32⟩
  | .hbm, ⟨30, _⟩ => ⟨S64x8x768, .f32⟩
  | .hbm, ⟨31, _⟩ => ⟨S64x8x768, .f32⟩
  | .hbm, ⟨32, _⟩ => ⟨S64x344x768, .f32⟩
  | .hbm, ⟨33, _⟩ => ⟨S_, .i32⟩
  | .hbm, ⟨34, _⟩ => ⟨S64x344, .i32⟩
  | .hbm, ⟨35, _⟩ => ⟨S64x344, .i1⟩
  | .hbm, ⟨36, _⟩ => ⟨S_, .i32⟩
  | .hbm, ⟨37, _⟩ => ⟨S64x344, .i32⟩
  | .hbm, ⟨38, _⟩ => ⟨S64x344, .i32⟩
  | .hbm, ⟨39, _⟩ => ⟨S64x344, .i32⟩
  | .hbm, ⟨40, _⟩ => ⟨S64x344x1, .i32⟩
  | .hbm, ⟨41, _⟩ => ⟨S64x344x768, .f32⟩
  | .hbm, ⟨42, _⟩ => ⟨S64x344x768, .f32⟩
  | .hbm, ⟨43, _⟩ => ⟨S_, .f32⟩
  | .hbm, ⟨44, _⟩ => ⟨S64x344, .f32⟩
  | .hbm, ⟨45, _⟩ => ⟨S64x344x1, .f32⟩
  | .hbm, ⟨46, _⟩ => ⟨S_, .f32⟩
  | .hbm, ⟨47, _⟩ => ⟨S64x344x1, .f32⟩
  | .hbm, ⟨48, _⟩ => ⟨S64x344x1, .f32⟩
  | .hbm, ⟨49, _⟩ => ⟨S64x344x768, .f32⟩
  | .hbm, ⟨50, _⟩ => ⟨S64x344x768, .f32⟩
  | .hbm, ⟨51, _⟩ => ⟨S64x344x768, .f32⟩
  | .hbm, ⟨52, _⟩ => ⟨S_, .f32⟩
  | .hbm, ⟨53, _⟩ => ⟨S64x344, .f32⟩
  | .hbm, ⟨54, _⟩ => ⟨S64x344x1, .f32⟩
  | .hbm, ⟨55, _⟩ => ⟨S_, .f32⟩
  | .hbm, ⟨56, _⟩ => ⟨S64x344x1, .f32⟩
  | .hbm, ⟨57, _⟩ => ⟨S64x344x1, .f32⟩
  | .hbm, ⟨58, _⟩ => ⟨S64x344x768, .f32⟩
  | .hbm, ⟨59, _⟩ => ⟨S64x344x768, .f32⟩
  | .hbm, ⟨60, _⟩ => ⟨S_, .f32⟩
  | .hbm, ⟨61, _⟩ => ⟨S64x344x1, .f32⟩
  | .hbm, ⟨62, _⟩ => ⟨S64x344x1, .f32⟩
  | .hbm, ⟨63, _⟩ => ⟨S64x344x1, .f32⟩
  | .hbm, ⟨64, _⟩ => ⟨S64x344x768, .f32⟩
  | .hbm, ⟨65, _⟩ => ⟨S64x344x768, .f32⟩
  | .hbm, ⟨66, _⟩ => ⟨S1x1x768, .f32⟩
  | .hbm, ⟨67, _⟩ => ⟨S64x344x768, .f32⟩
  | .hbm, ⟨68, _⟩ => ⟨S64x344x768, .f32⟩
  | .hbm, ⟨69, _⟩ => ⟨S1x1x768, .f32⟩
  | .hbm, ⟨70, _⟩ => ⟨S64x344x768, .f32⟩
  | .hbm, ⟨71, _⟩ => ⟨S64x344x768, .f32⟩
  | .hbm, ⟨72, _⟩ => ⟨S_, .i1⟩
  | .hbm, ⟨73, _⟩ => ⟨S64x344, .i1⟩
  | _, _ => ⟨S64x160x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst : Ref sig .tc := ⟨.hbm, 43, rfl⟩
abbrev main_v25 : Ref sig .tc := ⟨.hbm, 44, rfl⟩
abbrev main_v26 : Ref sig .tc := ⟨.hbm, 45, rfl⟩
abbrev main_cst_1 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_2 : Ref sig .tc := ⟨.hbm, 52, rfl⟩
abbrev main_v32 : Ref sig .tc := ⟨.hbm, 53, rfl⟩
abbrev main_v33 : Ref sig .tc := ⟨.hbm, 54, rfl⟩
abbrev main_cst_3 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_4 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_5 : Ref sig .tc := ⟨.hbm, 72, rfl⟩
abbrev main_v49 : Ref sig .tc := ⟨.hbm, 73, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S64x160x768_0_1_2 : S1x1x768.BroadcastsInDim S64x160x768 (![0, 1, 2] : Fin 3 → Fin S64x160x768.rank)
  bcast_S1x1x768_S64x16x768_0_1_2 : S1x1x768.BroadcastsInDim S64x16x768 (![0, 1, 2] : Fin 3 → Fin S64x16x768.rank)
  bcast_S1x1x768_S64x8x768_0_1_2 : S1x1x768.BroadcastsInDim S64x8x768 (![0, 1, 2] : Fin 3 → Fin S64x8x768.rank)
  concatenates_S64x160x768_S64x160x768_S64x16x768_S64x8x768_S64x344x768_d1 : Shape.Concatenates [S64x160x768, S64x160x768, S64x16x768, S64x8x768] S64x344x768 1
  bcast_S_S64x344 : S_.BroadcastsInDim S64x344 (![] : Fin 0 → Fin S64x344.rank)
  bcast_S64x344_S64x344x1_0_1 : S64x344.BroadcastsInDim S64x344x1 (![0, 1] : Fin 2 → Fin S64x344x1.rank)
  reducesTo_S64x344x768_S64x344_d2 : S64x344x768.ReducesTo [2] S64x344
  h_S_ : 0 < S_.numel
  bcast_S_S64x344x1 : S_.BroadcastsInDim S64x344x1 (![] : Fin 0 → Fin S64x344x1.rank)
  bcast_S64x344x1_S64x344x768_0_1_2 : S64x344x1.BroadcastsInDim S64x344x768 (![0, 1, 2] : Fin 3 → Fin S64x344x768.rank)
  bcast_S1x1x768_S64x344x768_0_1_2 : S1x1x768.BroadcastsInDim S64x344x768 (![0, 1, 2] : Fin 3 → Fin S64x344x768.rank)
  dot_S64x160x2048_S2048x768_S64x160x768_2_0_01_1_n_n_wf : DotDims.WF S64x160x2048 S2048x768 S64x160x768 [2] [0] [0, 1] [1] [] []
  dot_S64x160x1024_S1024x768_S64x160x768_2_0_01_1_n_n_wf : DotDims.WF S64x160x1024 S1024x768 S64x160x768 [2] [0] [0, 1] [1] [] []
  dot_S64x16x2048_S2048x768_S64x16x768_2_0_01_1_n_n_wf : DotDims.WF S64x16x2048 S2048x768 S64x16x768 [2] [0] [0, 1] [1] [] []
  dot_S64x8x2048_S2048x768_S64x8x768_2_0_01_1_n_n_wf : DotDims.WF S64x8x2048 S2048x768 S64x8x768 [2] [0] [0, 1] [1] [] []
  gather_S512x768_S64x344x1_S64x344x768_2_0_n_n_0_2_1768_wf : GatherDims.WF S512x768 S64x344x1 S64x344x768 [2] [0] [] [0] [] 2 ![1, 768]

variable [Facts₀]

def dot_S64x160x2048_S2048x768_S64x160x768_2_0_01_1_n_n : DotDims S64x160x2048 S2048x768 S64x160x768 where
  lhsContracting := [2]
  rhsContracting := [0]
  lhsNonContracting := [0, 1]
  rhsNonContracting := [1]
  lhsBatch := []
  rhsBatch := []
  wf := dot_S64x160x2048_S2048x768_S64x160x768_2_0_01_1_n_n_wf
def dot_S64x160x1024_S1024x768_S64x160x768_2_0_01_1_n_n : DotDims S64x160x1024 S1024x768 S64x160x768 where
  lhsContracting := [2]
  rhsContracting := [0]
  lhsNonContracting := [0, 1]
  rhsNonContracting := [1]
  lhsBatch := []
  rhsBatch := []
  wf := dot_S64x160x1024_S1024x768_S64x160x768_2_0_01_1_n_n_wf
def dot_S64x16x2048_S2048x768_S64x16x768_2_0_01_1_n_n : DotDims S64x16x2048 S2048x768 S64x16x768 where
  lhsContracting := [2]
  rhsContracting := [0]
  lhsNonContracting := [0, 1]
  rhsNonContracting := [1]
  lhsBatch := []
  rhsBatch := []
  wf := dot_S64x16x2048_S2048x768_S64x16x768_2_0_01_1_n_n_wf
def dot_S64x8x2048_S2048x768_S64x8x768_2_0_01_1_n_n : DotDims S64x8x2048 S2048x768 S64x8x768 where
  lhsContracting := [2]
  rhsContracting := [0]
  lhsNonContracting := [0, 1]
  rhsNonContracting := [1]
  lhsBatch := []
  rhsBatch := []
  wf := dot_S64x8x2048_S2048x768_S64x8x768_2_0_01_1_n_n_wf
def gather_S512x768_S64x344x1_S64x344x768_2_0_n_n_0_2_1768 : GatherDims S512x768 S64x344x1 S64x344x768 where
  offsetDims := [2]
  collapsedSliceDims := [0]
  operandBatchingDims := []
  startIndicesBatchingDims := []
  startIndexMap := [0]
  indexVectorDim := 2
  sliceSizes := ![1, 768]
  wf := gather_S512x768_S64x344x1_S64x344x768_2_0_n_n_0_2_1768_wf

class Facts : Prop extends Facts₀ where

variable [Facts]
-- ==== Proof.Spec.lean ====
/-
  The mathematics shared by both programs, stated once over plain functions of finite index types.

  A token row is a modality's projection plus its bias plus one row of the order table; each row is then
  normalised over the 768 hidden coordinates: subtract the mean, scale by the reciprocal square root of the
  variance plus a small constant, multiply by a gain and add a shift. Both programs compute exactly this
  expression, operation for operation, so no algebraic law of the extended reals is needed beyond the
  reading of a one-hot contraction as the selection of one table row.

  The order table's row is chosen by an integer word: read signed and clamped into [0, 511]. For a
  non-negative word the two programs' ways of forming that row number agree (the kernel clamps the word
  and compares it with a lane counter; the reference first wraps negative words by 512, which leaves a
  non-negative word alone, and its gather clamps).
-/
import Idealize.ShloMosaic.PureOps.Ideal
import Idealize.ShloMosaic.PureOps.Ideal.Laws
import Idealize.ShloMosaic.Lib.ValueIdx

noncomputable section

open scoped BigOperators

namespace Cert.OrderEmbed

open Idealize.ShloMosaic

/-- The divisor 768.0 of both means, as both programs print it. -/
abbrev c768 : EReal := Ideal.ofBits .f32 0x44400000#32
/-- The small constant added to the variance, as both programs print it. -/
abbrev epsv : EReal := Ideal.ofBits .f32 0x2B8CBCCC#32

/-- The mean of a row. -/
def mean (e : Fin 768 → EReal) : EReal := Ideal.div (∑ h : Fin 768, e h) c768
/-- The variance of a row: the mean of the squared deviations. -/
def var (e : Fin 768 → EReal) : EReal :=
  Ideal.div (∑ h : Fin 768, (e h - mean e) * (e h - mean e)) c768
/-- The normalised row, with gain `g` and shift `s`. -/
def ln (e g s : Fin 768 → EReal) (q : Fin 768) : EReal :=
  (e q - mean e) * Ideal.rsqrt (var e + epsv) * g q + s q

/-- One token row before normalisation: features `x` against the weight matrix `W`, plus the bias, plus the
    selected row `r` of the order table. -/
def tok {D : Nat} (x : Fin D → EReal) (W : Fin D → Fin 768 → EReal) (b r : Fin 768 → EReal) (h : Fin 768) : EReal :=
  (∑ d : Fin D, x d * W d h) + b h + r h

/-- The table row an index word selects: the word read signed, clamped into [0, 511]. -/
def rowOf (w : BitVec 32) : Fin 512 := ⟨min w.toInt.toNat 511, by omega⟩

theorem toInt_nonneg_iff (w : BitVec 32) : 0 ≤ w.toInt ↔ w.toNat < 2 ^ 31 := by
  rw [BitVec.toInt_eq_toNat_cond]; split <;> omega

theorem toInt_of_nonneg {w : BitVec 32} (hw : 0 ≤ w.toInt) : w.toInt = w.toNat := by
  have := (toInt_nonneg_iff w).mp hw
  rw [BitVec.toInt_eq_toNat_cond, if_pos (by omega)]

theorem rowOf_val {w : BitVec 32} (hw : 0 ≤ w.toInt) : (rowOf w).val = min w.toNat 511 := by
  show min w.toInt.toNat 511 = _
  rw [toInt_of_nonneg hw, Int.toNat_natCast]

/-- The kernel's clamp of a non-negative word into [0, 511] is the word of the selected row. -/
theorem clip_eq {w : BitVec 32} (hw : 0 ≤ w.toInt) :
    IntOp.minsi 511#32 (IntOp.maxsi 0#32 w) = BitVec.ofNat 32 (rowOf w).val := by
  have hlt := (toInt_nonneg_iff w).mp hw
  have hti := toInt_of_nonneg hw
  have h0 : (0#32 : BitVec 32).toInt = 0 := by decide
  have h511 : (511#32 : BitVec 32).toInt = 511 := by decide
  have hmax : IntOp.maxsi 0#32 w = w := by
    unfold IntOp.maxsi
    rw [if_neg]
    simp only [BitVec.slt, hti, h0, decide_eq_true_eq]; omega
  rw [hmax, rowOf_val hw]
  unfold IntOp.minsi
  by_cases hc : 511 < w.toNat
  · rw [if_pos (by simp only [BitVec.slt, hti, h511, decide_eq_true_eq]; omega)]
    rw [Nat.min_eq_right (by omega)]
  · rw [if_neg (by simp only [BitVec.slt, hti, h511, decide_eq_true_eq]; omega)]
    rw [Nat.min_eq_left (by omega)]
    apply BitVec.eq_of_toNat_eq
    rw [BitVec.toNat_ofNat]; omega

/-- The reference's wrap of a negative index by 512 leaves a non-negative word alone. -/
theorem wrap_eq {w : BitVec 32} (hw : 0 ≤ w.toInt) :
    Scalar.select (IntOp.cmpi .slt w 0#32) (IntOp.addi w 512#32) w = w := by
  have hti := toInt_of_nonneg hw
  have h0 : (0#32 : BitVec 32).toInt = 0 := by decide
  have hc : IntOp.cmpi .slt w 0#32 = 0#1 := by
    unfold IntOp.cmpi
    have : w.slt 0#32 = false := by simp only [BitVec.slt, hti, h0, decide_eq_false_iff_not]; omega
    simp only [this]; rfl
  rw [hc]; exact ValueIdx.select_zero _ _

/-- A lane counter below 512 equals the clamped word exactly at the selected row. -/
theorem lane_eq_iff {w : BitVec 32} (hw : 0 ≤ w.toInt) (k : Fin 512) :
    BitVec.ofNat 32 k.val = BitVec.ofNat 32 (rowOf w).val ↔ k = rowOf w := by
  constructor
  · intro h
    have := congrArg BitVec.toNat h
    simp only [BitVec.toNat_ofNat] at this
    have hk := k.isLt; have hr := (rowOf w).isLt
    exact Fin.ext (by omega)
  · intro h; rw [h]

/-- THE ONE-HOT CONTRACTION: a row of 0/1 weights with its single 1 at row `r`, contracted against a column
    of the table, selects the table's entry at `r` — for any extended reals, since `0 · x = 0` and `1 · x = x`
    hold throughout. The weights are written as the kernel forms them: the one-bit outcome of comparing the
    lane counter with the clamped word, widened to 32 bits and converted to a float. -/
theorem onehot_sum (cw : BitVec 32) (r : Fin 512)
    (hr : ∀ k : Fin 512, BitVec.ofNat 32 k.val = cw ↔ k = r) (T : Fin 512 → EReal) :
    (∑ k : Fin 512, ((((IntOp.cmpi .eq (BitVec.ofNat 32 k.val) cw).setWidth 32).toInt : ℝ) : EReal) * T k) = T r := by
  rw [Finset.sum_eq_single r]
  · have : IntOp.cmpi .eq (BitVec.ofNat 32 r.val) cw = 1#1 := by
      unfold IntOp.cmpi; rw [(hr r).mpr rfl]; simp
    rw [this]
    have : (((1#1 : BitVec 1).setWidth 32).toInt : ℝ) = 1 := by norm_num [show ((1#1 : BitVec 1).setWidth 32).toInt = 1 from by decide]
    rw [this, EReal.coe_one, one_mul]
  · intro k _ hk
    have : IntOp.cmpi .eq (BitVec.ofNat 32 k.val) cw = 0#1 := by
      unfold IntOp.cmpi
      have : (BitVec.ofNat 32 k.val == cw) = false := by
        rw [beq_eq_false_iff_ne]; exact fun h => hk ((hr k).mp h)
      simp only [this]; rfl
    rw [this]
    have : (((0#1 : BitVec 1).setWidth 32).toInt : ℝ) = 0 := by norm_num [show ((0#1 : BitVec 1).setWidth 32).toInt = 0 from by decide]
    rw [this, EReal.coe_zero, zero_mul]
  · intro h; exact absurd (Finset.mem_univ r) h

/-! ## The result, as one function of the sixteen argument arrays -/

open Idealize.ShloMosaic.ValueIdx

/-- The argument arrays, at the ideal values: four feature arrays, the index words, four weight matrices with
    their biases, the order table, the normalisation's gain and shift. -/
structure Args where
  x0 : (⟨3, ![64, 160, 2048]⟩ : Shape).Idx → EReal
  x1 : (⟨3, ![64, 160, 1024]⟩ : Shape).Idx → EReal
  x2 : (⟨3, ![64, 16, 2048]⟩ : Shape).Idx → EReal
  x3 : (⟨3, ![64, 8, 2048]⟩ : Shape).Idx → EReal
  ids : (⟨2, ![64, 344]⟩ : Shape).Idx → BitVec 32
  W0 : (⟨2, ![2048, 768]⟩ : Shape).Idx → EReal
  b0 : (⟨1, ![768]⟩ : Shape).Idx → EReal
  W1 : (⟨2, ![1024, 768]⟩ : Shape).Idx → EReal
  b1 : (⟨1, ![768]⟩ : Shape).Idx → EReal
  W2 : (⟨2, ![2048, 768]⟩ : Shape).Idx → EReal
  b2 : (⟨1, ![768]⟩ : Shape).Idx → EReal
  W3 : (⟨2, ![2048, 768]⟩ : Shape).Idx → EReal
  b3 : (⟨1, ![768]⟩ : Shape).Idx → EReal
  T : (⟨2, ![512, 768]⟩ : Shape).Idx → EReal
  g : (⟨1, ![768]⟩ : Shape).Idx → EReal
  s : (⟨1, ![768]⟩ : Shape).Idx → EReal

/-- The order-table row of token `t` of sample `b`. -/
def orow (A : Args) (b : Fin 64) (t : Fin 344) : Fin 768 → EReal :=
  fun h => A.T (ix2 (rowOf (A.ids (ix2 b t))) h)

/-- Token `t` of sample `b` before normalisation. The 344 tokens are four consecutive runs — 160 object
    tokens, 160 relation tokens, 16 frame tokens, 8 action tokens — each projected by its own matrix. -/
def tokRow (A : Args) (b : Fin 64) (t : Fin 344) : Fin 768 → EReal :=
  if h0 : t.val < 160 then
    tok (fun d => A.x0 (ix3 b (⟨t.val, h0⟩ : Fin 160) d)) (fun d h => A.W0 (ix2 d h)) (fun h => A.b0 (ix1 h)) (orow A b t)
  else if h1 : t.val < 320 then
    tok (fun d => A.x1 (ix3 b (⟨t.val - 160, by omega⟩ : Fin 160) d)) (fun d h => A.W1 (ix2 d h)) (fun h => A.b1 (ix1 h)) (orow A b t)
  else if h2 : t.val < 336 then
    tok (fun d => A.x2 (ix3 b (⟨t.val - 320, by omega⟩ : Fin 16) d)) (fun d h => A.W2 (ix2 d h)) (fun h => A.b2 (ix1 h)) (orow A b t)
  else
    tok (fun d => A.x3 (ix3 b (⟨t.val - 336, by have := t.isLt; omega⟩ : Fin 8) d)) (fun d h => A.W3 (ix2 d h)) (fun h => A.b3 (ix1 h)) (orow A b t)

/-- The result at sample `b`, token `t`, hidden coordinate `q`. -/
def Gat (A : Args) (b : Fin 64) (t : Fin 344) (q : Fin 768) : EReal :=
  ln (tokRow A b t) (fun h => A.g (ix1 h)) (fun h => A.s (ix1 h)) q

/-- The result array. -/
def G (A : Args) : (⟨3, ![64, 344, 768]⟩ : Shape).Idx → EReal :=
  fun i => Gat A ⟨(i 0).val, (i 0).isLt⟩ ⟨(i 1).val, (i 1).isLt⟩ ⟨(i 2).val, (i 2).isLt⟩

theorem G_ix3 (A : Args) (b : Fin 64) (t : Fin 344) (q : Fin 768) : G A (ix3 b t q) = Gat A b t q := rfl

theorem tokRow_obj (A : Args) (b : Fin 64) (p : Fin 160) (t : Fin 344) (ht : t.val = p.val) :
    tokRow A b t = tok (fun d => A.x0 (ix3 b p d)) (fun d h => A.W0 (ix2 d h)) (fun h => A.b0 (ix1 h)) (orow A b t) := by
  unfold tokRow
  rw [dif_pos (show t.val < 160 by have := p.isLt; omega)]
  have : (⟨t.val, by have := p.isLt; omega⟩ : Fin 160) = p := Fin.ext ht
  rw [this]

theorem tokRow_rel (A : Args) (b : Fin 64) (p : Fin 160) (t : Fin 344) (ht : t.val = 160 + p.val) :
    tokRow A b t = tok (fun d => A.x1 (ix3 b p d)) (fun d h => A.W1 (ix2 d h)) (fun h => A.b1 (ix1 h)) (orow A b t) := by
  unfold tokRow
  rw [dif_neg (show ¬ t.val < 160 by omega), dif_pos (show t.val < 320 by have := p.isLt; omega)]
  have : (⟨t.val - 160, by have := p.isLt; omega⟩ : Fin 160) = p := Fin.ext (by show t.val - 160 = p.val; omega)
  rw [this]

theorem tokRow_frm (A : Args) (b : Fin 64) (p : Fin 16) (t : Fin 344) (ht : t.val = 320 + p.val) :
    tokRow A b t = tok (fun d => A.x2 (ix3 b p d)) (fun d h => A.W2 (ix2 d h)) (fun h => A.b2 (ix1 h)) (orow A b t) := by
  unfold tokRow
  rw [dif_neg (show ¬ t.val < 160 by omega), dif_neg (show ¬ t.val < 320 by omega),
    dif_pos (show t.val < 336 by have := p.isLt; omega)]
  have : (⟨t.val - 320, by have := p.isLt; omega⟩ : Fin 16) = p := Fin.ext (by show t.val - 320 = p.val; omega)
  rw [this]

theorem tokRow_act (A : Args) (b : Fin 64) (p : Fin 8) (t : Fin 344) (ht : t.val = 336 + p.val) :
    tokRow A b t = tok (fun d => A.x3 (ix3 b p d)) (fun d h => A.W3 (ix2 d h)) (fun h => A.b3 (ix1 h)) (orow A b t) := by
  unfold tokRow
  rw [dif_neg (show ¬ t.val < 160 by omega), dif_neg (show ¬ t.val < 320 by omega),
    dif_neg (show ¬ t.val < 336 by omega)]
  have : (⟨t.val - 336, by have := p.isLt; omega⟩ : Fin 8) = p := Fin.ext (by show t.val - 336 = p.val; omega)
  rw [this]

end Cert.OrderEmbed

end
-- ==== Proof.PreDecode.lean ====
/-
  What the precondition says of the index words: its last conjunct, "every order index is non-negative",
  read out of the printed predicate. (Finiteness of the float inputs, its other conjuncts, is not used:
  no law the two programs' agreement rests on fails at an infinity.)
-/
import proofs.«400087_j58643483459633_3_alg».proof.Pre_finite_inputs
import Idealize.ShloMosaic.Lib.ReduceAll
import Idealize.ShloMosaic.Lib.ValueIdx
import Idealize.ShloMosaic.Lib.ValueLayout

noncomputable section

namespace Cert.OrderEmbed.Pre

open Cert.Pre_finite_inputs Idealize.ShloMosaic

instance : Subsingleton S_.Idx := ⟨fun a b => funext fun d => d.elim0⟩

/-- Where the printed precondition is all ones, every index word, read signed, is at least zero. -/
theorem ids_nonneg [Cert.Pre_finite_inputs.Facts] (a0 : FVec Ideal S64x160x2048 .f32) (a1 : FVec Ideal S64x160x1024 .f32) (a2 : FVec Ideal S64x16x2048 .f32)
    (a3 : FVec Ideal S64x8x2048 .f32) (a4 : IVec S64x344 32) (a5 : FVec Ideal S2048x768 .f32) (a6 : FVec Ideal S768 .f32)
    (a7 : FVec Ideal S1024x768 .f32) (a8 : FVec Ideal S768 .f32) (a9 : FVec Ideal S2048x768 .f32) (a10 : FVec Ideal S768 .f32)
    (a11 : FVec Ideal S2048x768 .f32) (a12 : FVec Ideal S768 .f32) (a13 : FVec Ideal S512x768 .f32) (a14 : FVec Ideal S768 .f32)
    (a15 : FVec Ideal S768 .f32)
    (h : fn (F := Ideal) a0 a1 a2 a3 a4 a5 a6 a7 a8 a9 a10 a11 a12 a13 a14 a15 = fun _ => 1#1) (i : S64x344.Idx) :
    0 ≤ (a4 i).toInt := by
  have h0 := congrFun h ValueIdx.ix0
  dsimp only [fn, fn_part1, fn_part2, fn_part3, fn_part4] at h0
  have h1 := (IntOp.andi_eq_one.mp h0).2
  have h2 := Host.reduce_andi_all _ _ _ _ _ h1 i
  have hb : ∀ hh : S_.BroadcastsInDim S64x344 (![] : Fin 0 → Fin S64x344.rank),
      broadcastInDim S64x344 ![] hh (constantI S_ 32 0#32) i = 0#32 := fun hh =>
    broadcastInDim_apply _ hh _ i ValueIdx.ix0 (fun a => a.elim0)
  change IntOp.cmpi .sge (a4 i) _ = 1#1 at h2
  rw [hb] at h2
  have h4 : (0#32 : BitVec 32).sle (a4 i) = true := by
    cases hc : (0#32 : BitVec 32).sle (a4 i) with
    | true => rfl
    | false =>
      have h5 : IntOp.cmpi .sge (a4 i) 0#32 = 0#1 := by
        show BitVec.ofBool ((0#32 : BitVec 32).sle (a4 i)) = 0#1
        rw [hc]; rfl
      rw [h5] at h2
      exact absurd h2 (by decide)
  simpa [BitVec.sle] using h4

end Cert.OrderEmbed.Pre

end
-- ==== Proof.LibKeepdims.lean ====
/-
  Row-wise reductions with a kept unit axis, read at an index: the column forms a `jnp.mean(x, axis=-1, keepdims=True)`
  inside a kernel body goes through, which the value library's list of layout lemmas does not carry — a vector `[a]`
  cast to a column `[a, 1]`, a column `[a, 1]` broadcast along rows to `[a, b]`, a lane sum of `[a, b]` over its second
  axis read as the sum over that axis's coordinate — and a matrix product `[n, K] × [K, m]` into a zero accumulator
  read as the sum over the contracted coordinate, for any dimension record whose operand indices are the plain ones.
  All statements are over indices built from coordinates of literal `Fin` types (`ix1`, `ix2`).
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Idealize.ShloMosaic.Keepdims

open Idealize.ShloMosaic Idealize.ShloMosaic.ValueIdx

variable {α : Type}

/-- A vector `[a]` cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float lane sum of `[a, b]` over its second axis, at the ideal values, read at row `p`: the sum over the row. -/
theorem multiReduction_add_rows {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax
  match ax with
  | ⟨0, _⟩ => rfl
  | ⟨1, _⟩ => rfl

/-- A matrix product `[n, K] × [K, m]` into the zero accumulator, at the ideal values, read at `(p, h)`: the sum over the
    contracted coordinate — for any dimension record contracting the left operand's second axis with the right
    operand's first (the four coordinate facts `hl0 … hr1` are `fun _ _ => rfl` at a literal record). -/
theorem matmul_zero_apply {n K m : ℕ} {φ₁ φ₂ : FTy}
    (d : DotDims (⟨2, ![n, K]⟩ : Shape) (⟨2, ![K, m]⟩ : Shape) (⟨2, ![n, m]⟩ : Shape))
    (hr : d.contr.rank = 1) (hs : d.contr.size ⟨0, by omega⟩ = K)
    (hl0 : ∀ (j : (⟨2, ![n, m]⟩ : Shape).Idx) (k : d.contr.Idx), (d.lhsIdx j k 0).val = (j 0).val)
    (hl1 : ∀ (j : (⟨2, ![n, m]⟩ : Shape).Idx) (k : d.contr.Idx), (d.lhsIdx j k 1).val = (k ⟨0, by omega⟩).val)
    (hr0 : ∀ (j : (⟨2, ![n, m]⟩ : Shape).Idx) (k : d.contr.Idx), (d.rhsIdx j k 0).val = (k ⟨0, by omega⟩).val)
    (hr1 : ∀ (j : (⟨2, ![n, m]⟩ : Shape).Idx) (k : d.contr.Idx), (d.rhsIdx j k 1).val = (j 1).val)
    (prec : Option ContractPrecision) (lhs : FVec Ideal (⟨2, ![n, K]⟩ : Shape) φ₁) (rhs : FVec Ideal (⟨2, ![K, m]⟩ : Shape) φ₂)
    (p : Fin n) (h : Fin m) :
    FloatOps.matmul d prec lhs rhs (constant (⟨2, ![n, m]⟩ : Shape) .f32 0x00000000#32) (ix2 p h)
      = ∑ k : Fin K, lhs (ix2 p k) * rhs (ix2 k h) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p h) ((contrEquiv1 d K hr hs).symm k) = ix2 p k := funext fun ax => Fin.ext (by
    match ax with
    | ⟨0, _⟩ => exact hl0 _ _
    | ⟨1, _⟩ => exact (hl1 _ _).trans hk)
  have er : d.rhsIdx (ix2 p h) ((contrEquiv1 d K hr hs).symm k) = ix2 k h := funext fun ax => Fin.ext (by
    match ax with
    | ⟨0, _⟩ => exact (hr0 _ _).trans hk
    | ⟨1, _⟩ => exact hr1 _ _)
  rw [el, er]

end Idealize.ShloMosaic.Keepdims

end
-- ==== Proof.KernelRows.lean ====
/-
  The kernel body's four stored blocks, read at an index: each is the normalised token row of its modality.
-/
import proofs.«400087_j58643483459633_3_alg».proof.Proof.Gen.KernelIdeal.Skeleton
import proofs.«400087_j58643483459633_3_alg».proof.Proof.Spec
import proofs.«400087_j58643483459633_3_alg».proof.Proof.LibKeepdims
import Idealize.ShloMosaic.Lib.Pipeline.Value
import Idealize.ShloMosaic.Lib.ValueLayout
import Idealize.ShloMosaic.PureOps.Ideal.Laws

noncomputable section

namespace Cert.KernelIdeal.Rows

open Cert.KernelIdeal Cert.KernelIdeal.Gen Idealize.ShloMosaic Idealize.ShloMosaic.ValueIdx Cert.OrderEmbed
open Idealize.ShloMosaic.Keepdims

/-- THE GATHER AS A MATRIX PRODUCT: the body multiplies a 344 × 512 matrix of 0/1 weights — row `t` has its single 1 in
    the lane equal to token `t`'s index word — with the 512 × 768 table; entry `(t, h)` is the table's entry at the
    selected row. `r` is that row: the only lane counter below 512 equal to the word. -/
theorem gathered_apply (v0 : Vec Ideal S1x344x1 .i32) (v8 : Vec Ideal S512x768 .bf16) (t : Fin 344) (h : Fin 768) (r : Fin 512)
    (hr : ∀ k : Fin 512, BitVec.ofNat 32 k.val = (v0 (ix3 (0 : Fin 1) t (0 : Fin 1)) : BitVec 32) ↔ k = r) :
    k0_pay2 (F := Ideal) v0 v8 (ix2 t h) = (v8 (ix2 r h) : EReal) := by
  unfold k0_pay2
  simp only [matmul]
  refine (matmul_zero_apply dot_S344x512_S512x768_S344x768_1_0_0_1_n_n rfl rfl (fun _ _ => rfl) (fun _ _ => rfl)
    (fun _ _ => rfl) (fun _ _ => rfl) none _ _ t h).trans ?_
  refine Eq.trans ?_ (onehot_sum (v0 (ix3 (0 : Fin 1) t (0 : Fin 1))) r hr (fun k => (v8 (ix2 k h) : EReal)))
  refine Finset.sum_congr rfl fun k _ => ?_
  congr 1
  · show ((((IntOp.cmpi .eq (iota .tc S344x512 32 [1] iota_S344x512_d1_w32 (ix2 t k))
        (broadcastTo S344x512 (shapeCast S344x1 v0 shapeCasts_S1x344x1_S344x1) broadcasts_S344x1_S344x512 (ix2 t k))).setWidth 32).toInt : ℝ) : EReal) = _
    rw [iota_single_apply, broadcastTo_a1_ab_apply, shapeCast_1ab_ab_apply]
  · exact congrFun (shapeCast_self v8 _) (ix2 k h)

/-! ## One modality's block, as the body computes it, generic in the number of rows

The body does the same arithmetic on each modality's rows; only the extents differ. The arithmetic is written here
once over a block of `n` rows, as the composition of vector operations the body prints, and read at an index. -/

section Block

variable {n : ℕ}

/-- The projected rows plus bias plus the rows `lo … lo + n − 1` of the gathered table rows. -/
abbrev embBlk {K lo : ℕ} (x : FVec Ideal (⟨2, ![n, K]⟩ : Shape) .f32) (w : FVec Ideal (⟨2, ![K, 768]⟩ : Shape) .bf16)
    (bias : Vec Ideal S768 .f32) (gath : FVec Ideal S344x768 .f32)
    (d : DotDims (⟨2, ![n, K]⟩ : Shape) (⟨2, ![K, 768]⟩ : Shape) (⟨2, ![n, 768]⟩ : Shape))
    (hbits : FTy.bf16.bits < FTy.f32.bits) (hrow : S768.ShapeCasts S1x768)
    (hbr : S1x768.Broadcasts (⟨2, ![n, 768]⟩ : Shape)) (hsl : S344x768.Slices ![lo, 0] (⟨2, ![n, 768]⟩ : Shape)) :
    FVec Ideal (⟨2, ![n, 768]⟩ : Shape) .f32 :=
  addf (addf (matmul d none (truncf .bf16 x hbits) w (constant (⟨2, ![n, 768]⟩ : Shape) .f32 0x00000000#32))
      (broadcastTo (⟨2, ![n, 768]⟩ : Shape) (shapeCast S1x768 bias hrow) hbr))
    (extractStridedSlice (⟨2, ![n, 768]⟩ : Shape) ![lo, 0] gath hsl)

theorem embBlk_apply {K lo : ℕ} (x : FVec Ideal (⟨2, ![n, K]⟩ : Shape) .f32) (w : FVec Ideal (⟨2, ![K, 768]⟩ : Shape) .bf16)
    (bias : Vec Ideal S768 .f32) (gath : FVec Ideal S344x768 .f32)
    (d : DotDims (⟨2, ![n, K]⟩ : Shape) (⟨2, ![K, 768]⟩ : Shape) (⟨2, ![n, 768]⟩ : Shape))
    (hbits : FTy.bf16.bits < FTy.f32.bits) (hrow : S768.ShapeCasts S1x768)
    (hbr : S1x768.Broadcasts (⟨2, ![n, 768]⟩ : Shape)) (hsl : S344x768.Slices ![lo, 0] (⟨2, ![n, 768]⟩ : Shape))
    (hr : d.contr.rank = 1) (hs : d.contr.size ⟨0, by omega⟩ = K)
    (hl0 : ∀ (j : (⟨2, ![n, 768]⟩ : Shape).Idx) (k : d.contr.Idx), (d.lhsIdx j k 0).val = (j 0).val)
    (hl1 : ∀ (j : (⟨2, ![n, 768]⟩ : Shape).Idx) (k : d.contr.Idx), (d.lhsIdx j k 1).val = (k ⟨0, by omega⟩).val)
    (hr0 : ∀ (j : (⟨2, ![n, 768]⟩ : Shape).Idx) (k : d.contr.Idx), (d.rhsIdx j k 0).val = (k ⟨0, by omega⟩).val)
    (hr1 : ∀ (j : (⟨2, ![n, 768]⟩ : Shape).Idx) (k : d.contr.Idx), (d.rhsIdx j k 1).val = (j 1).val)
    (p : Fin n) (h : Fin 768) (t : Fin 344) (ht : t.val = lo + p.val) :
    embBlk x w bias gath d hbits hrow hbr hsl (ix2 p h)
      = (∑ k : Fin K, (x (ix2 p k) : EReal) * (w (ix2 k h) : EReal)) + (bias (ix1 h) : EReal) + (gath (ix2 t h) : EReal) := by
  show (FloatOps.matmul d none (truncf .bf16 x hbits) w (constant (⟨2, ![n, 768]⟩ : Shape) .f32 0x00000000#32) (ix2 p h)
      + broadcastTo (⟨2, ![n, 768]⟩ : Shape) (shapeCast S1x768 bias hrow) hbr (ix2 p h))
      + extractStridedSlice (⟨2, ![n, 768]⟩ : Shape) ![lo, 0] gath hsl (ix2 p h) = _
  rw [matmul_zero_apply d hr hs hl0 hl1 hr0 hr1, broadcastTo_1b_ab_apply, shapeCast_a_1a_apply,
    slice2_axis0_apply lo gath hsl p h t ht]
  rfl

variable (e : FVec Ideal (⟨2, ![n, 768]⟩ : Shape) .f32)
  (hred : (⟨2, ![n, 768]⟩ : Shape).Reduces [1] (⟨1, ![n]⟩ : Shape)) (hφ : FKind.Formats .f32)
  (hacc : (0x00000000#32 : BitVec 32) = FKind.add.neutral .f32 hφ)
  (hcol : (⟨1, ![n]⟩ : Shape).ShapeCasts (⟨2, ![n, 1]⟩ : Shape))
  (hbc : (⟨2, ![n, 1]⟩ : Shape).Broadcasts (⟨2, ![n, 768]⟩ : Shape))

/-- The rows' means, as a column. -/
abbrev meanCol : FVec Ideal (⟨2, ![n, 1]⟩ : Shape) .f32 :=
  divf (shapeCast (⟨2, ![n, 1]⟩ : Shape) (multiReduction .add [1] (⟨1, ![n]⟩ : Shape) e 0x00000000#32 hred hφ hacc) hcol)
    (broadcast (⟨2, ![n, 1]⟩ : Shape) (Scalar.ofBits .f32 0x44400000#32))

/-- The rows' deviations from their means. -/
abbrev devBlk : FVec Ideal (⟨2, ![n, 768]⟩ : Shape) .f32 :=
  subf e (broadcastTo (⟨2, ![n, 768]⟩ : Shape) (meanCol e hred hφ hacc hcol) hbc)

/-- The rows' variances, as a column. -/
abbrev varCol : FVec Ideal (⟨2, ![n, 1]⟩ : Shape) .f32 :=
  divf (shapeCast (⟨2, ![n, 1]⟩ : Shape) (multiReduction .add [1] (⟨1, ![n]⟩ : Shape)
      (mulf (devBlk e hred hφ hacc hcol hbc) (devBlk e hred hφ hacc hcol hbc)) 0x00000000#32 hred hφ hacc) hcol)
    (broadcast (⟨2, ![n, 1]⟩ : Shape) (Scalar.ofBits .f32 0x44400000#32))

/-- The deviations scaled by the reciprocal square root of variance plus the small constant. -/
abbrev scaledBlk : FVec Ideal (⟨2, ![n, 768]⟩ : Shape) .f32 :=
  mulf (devBlk e hred hφ hacc hcol hbc)
    (broadcastTo (⟨2, ![n, 768]⟩ : Shape)
      (rsqrt (addf (varCol e hred hφ hacc hcol hbc) (broadcast (⟨2, ![n, 1]⟩ : Shape) (Scalar.ofBits .f32 0x2B8CBCCC#32)))) hbc)

/-- The normalised rows: scaled deviations times the gain plus the shift. -/
abbrev lnBlk (g s : Vec Ideal S768 .f32) (hrow : S768.ShapeCasts S1x768) (hbr : S1x768.Broadcasts (⟨2, ![n, 768]⟩ : Shape)) :
    FVec Ideal (⟨2, ![n, 768]⟩ : Shape) .f32 :=
  addf (mulf (scaledBlk e hred hφ hacc hcol hbc) (broadcastTo (⟨2, ![n, 768]⟩ : Shape) (shapeCast S1x768 g hrow) hbr))
    (broadcastTo (⟨2, ![n, 768]⟩ : Shape) (shapeCast S1x768 s hrow) hbr)

theorem meanCol_apply (p : Fin n) :
    meanCol e hred hφ hacc hcol (ix2 p (0 : Fin 1)) = mean (fun h : Fin 768 => (e (ix2 p h) : EReal)) := by
  show Ideal.div (shapeCast (⟨2, ![n, 1]⟩ : Shape) (multiReduction .add [1] (⟨1, ![n]⟩ : Shape) e 0x00000000#32 hred hφ hacc) hcol
      (ix2 p (0 : Fin 1))) (Ideal.ofBits .f32 0x44400000#32) = _
  rw [shapeCast_a_a1_apply, multiReduction_add_rows]
  rfl

theorem devBlk_apply (p : Fin n) (q : Fin 768) :
    devBlk e hred hφ hacc hcol hbc (ix2 p q)
      = (e (ix2 p q) : EReal) - mean (fun h : Fin 768 => (e (ix2 p h) : EReal)) := by
  show (e (ix2 p q) : EReal) - broadcastTo (⟨2, ![n, 768]⟩ : Shape) (meanCol e hred hφ hacc hcol) hbc (ix2 p q) = _
  rw [broadcastTo_a1_ab_apply, meanCol_apply]

theorem varCol_apply (p : Fin n) :
    varCol e hred hφ hacc hcol hbc (ix2 p (0 : Fin 1)) = var (fun h : Fin 768 => (e (ix2 p h) : EReal)) := by
  show Ideal.div (shapeCast (⟨2, ![n, 1]⟩ : Shape) (multiReduction .add [1] (⟨1, ![n]⟩ : Shape)
      (mulf (devBlk e hred hφ hacc hcol hbc) (devBlk e hred hφ hacc hcol hbc)) 0x00000000#32 hred hφ hacc) hcol
      (ix2 p (0 : Fin 1))) (Ideal.ofBits .f32 0x44400000#32) = _
  rw [shapeCast_a_a1_apply, multiReduction_add_rows]
  unfold var
  refine congrArg (fun z => Ideal.div z c768) (Finset.sum_congr rfl fun k _ => ?_)
  show devBlk e hred hφ hacc hcol hbc (ix2 p k) * devBlk e hred hφ hacc hcol hbc (ix2 p k) = _
  rw [devBlk_apply]

theorem lnBlk_apply (g s : Vec Ideal S768 .f32) (hrow : S768.ShapeCasts S1x768)
    (hbr : S1x768.Broadcasts (⟨2, ![n, 768]⟩ : Shape)) (p : Fin n) (q : Fin 768) :
    lnBlk e hred hφ hacc hcol hbc g s hrow hbr (ix2 p q)
      = ln (fun h : Fin 768 => (e (ix2 p h) : EReal)) (fun h => (g (ix1 h) : EReal)) (fun h => (s (ix1 h) : EReal)) q := by
  show devBlk e hred hφ hacc hcol hbc (ix2 p q)
      * broadcastTo (⟨2, ![n, 768]⟩ : Shape)
          (rsqrt (addf (varCol e hred hφ hacc hcol hbc) (broadcast (⟨2, ![n, 1]⟩ : Shape) (Scalar.ofBits .f32 0x2B8CBCCC#32)))) hbc (ix2 p q)
      * broadcastTo (⟨2, ![n, 768]⟩ : Shape) (shapeCast S1x768 g hrow) hbr (ix2 p q)
      + broadcastTo (⟨2, ![n, 768]⟩ : Shape) (shapeCast S1x768 s hrow) hbr (ix2 p q) = _
  rw [devBlk_apply, broadcastTo_a1_ab_apply, broadcastTo_1b_ab_apply, shapeCast_a_1a_apply, broadcastTo_1b_ab_apply,
    shapeCast_a_1a_apply]
  show _ * Ideal.rsqrt (varCol e hred hφ hacc hcol hbc (ix2 p (0 : Fin 1)) + Ideal.ofBits .f32 0x2B8CBCCC#32) * _ + _ = _
  rw [varCol_apply]
  rfl

end Block

/-- ONE MODALITY'S STORED BLOCK AT AN INDEX. The block the body stores for a modality — its `n` feature rows (a
    `[1, n, K]` input block) projected by a `[K, 768]` matrix, plus the bias, plus rows `lo … lo + n − 1` of the gathered
    table rows, each row then normalised, the result stored as a `[1, n, 768]` block — read at `(0, p, q)`: the
    normalised token row of local row `p`, whose table row `r` is the one token `lo + p`'s index word selects. -/
theorem piece_apply {n K lo : ℕ} (v0 : Vec Ideal S1x344x1 .i32) (v8 : Vec Ideal S512x768 .bf16)
    (x : Vec Ideal (⟨3, ![1, n, K]⟩ : Shape) .f32) (w : Vec Ideal (⟨2, ![K, 768]⟩ : Shape) .bf16) (bias g s : Vec Ideal S768 .f32)
    (d : DotDims (⟨2, ![n, K]⟩ : Shape) (⟨2, ![K, 768]⟩ : Shape) (⟨2, ![n, 768]⟩ : Shape))
    (hx : (⟨3, ![1, n, K]⟩ : Shape).ShapeCasts (⟨2, ![n, K]⟩ : Shape))
    (hw : (⟨2, ![K, 768]⟩ : Shape).ShapeCasts (⟨2, ![K, 768]⟩ : Shape))
    (hbits : FTy.bf16.bits < FTy.f32.bits) (hrow : S768.ShapeCasts S1x768)
    (hbr : S1x768.Broadcasts (⟨2, ![n, 768]⟩ : Shape)) (hsl : S344x768.Slices ![lo, 0] (⟨2, ![n, 768]⟩ : Shape))
    (hred : (⟨2, ![n, 768]⟩ : Shape).Reduces [1] (⟨1, ![n]⟩ : Shape)) (hφ : FKind.Formats .f32)
    (hacc : (0x00000000#32 : BitVec 32) = FKind.add.neutral .f32 hφ)
    (hcol : (⟨1, ![n]⟩ : Shape).ShapeCasts (⟨2, ![n, 1]⟩ : Shape))
    (hbc : (⟨2, ![n, 1]⟩ : Shape).Broadcasts (⟨2, ![n, 768]⟩ : Shape))
    (hout : (⟨2, ![n, 768]⟩ : Shape).ShapeCasts (⟨3, ![1, n, 768]⟩ : Shape))
    (hr : d.contr.rank = 1) (hs : d.contr.size ⟨0, by omega⟩ = K)
    (hl0 : ∀ (j : (⟨2, ![n, 768]⟩ : Shape).Idx) (k : d.contr.Idx), (d.lhsIdx j k 0).val = (j 0).val)
    (hl1 : ∀ (j : (⟨2, ![n, 768]⟩ : Shape).Idx) (k : d.contr.Idx), (d.lhsIdx j k 1).val = (k ⟨0, by omega⟩).val)
    (hr0 : ∀ (j : (⟨2, ![n, 768]⟩ : Shape).Idx) (k : d.contr.Idx), (d.rhsIdx j k 0).val = (k ⟨0, by omega⟩).val)
    (hr1 : ∀ (j : (⟨2, ![n, 768]⟩ : Shape).Idx) (k : d.contr.Idx), (d.rhsIdx j k 1).val = (j 1).val)
    (p : Fin n) (q : Fin 768) (t : Fin 344) (ht : t.val = lo + p.val) (r : Fin 512)
    (hrow_sel : ∀ k : Fin 512, BitVec.ofNat 32 k.val = (v0 (ix3 (0 : Fin 1) t (0 : Fin 1)) : BitVec 32) ↔ k = r) :
    shapeCast (⟨3, ![1, n, 768]⟩ : Shape)
        (lnBlk (embBlk (lo := lo) (shapeCast (⟨2, ![n, K]⟩ : Shape) x hx) (shapeCast (⟨2, ![K, 768]⟩ : Shape) w hw) bias
          (k0_pay2 v0 v8) d hbits hrow hbr hsl) hred hφ hacc hcol hbc g s hrow hbr) hout (ix3 (0 : Fin 1) p q)
      = ln (tok (fun k : Fin K => (x (ix3 (0 : Fin 1) p k) : EReal)) (fun k h => (w (ix2 k h) : EReal)) (fun h => (bias (ix1 h) : EReal))
          (fun h => (v8 (ix2 r h) : EReal))) (fun h => (g (ix1 h) : EReal)) (fun h => (s (ix1 h) : EReal)) q := by
  refine (shapeCast_ab_1ab_apply _ _ (0 : Fin 1) p q).trans ?_
  refine (lnBlk_apply _ hred hφ hacc hcol hbc g s hrow hbr p q).trans ?_
  refine congrArg (fun e => ln e _ _ q) (funext fun h => ?_)
  refine (embBlk_apply (lo := lo) _ _ bias (k0_pay2 v0 v8) d hbits hrow hbr hsl hr hs hl0 hl1 hr0 hr1 p h t ht).trans ?_
  rw [gathered_apply v0 v8 t h r hrow_sel, shapeCast_self]
  unfold tok
  simp only [shapeCast_1ab_ab_apply]

/-- Rows 0 to 159 (object tokens). `r` is the table row the block's index word at token `p` selects. -/
theorem piece_obj (v0 : Vec Ideal S1x344x1 .i32) (v8 : Vec Ideal S512x768 .bf16) (v13 : Vec Ideal S1x160x2048 .f32)
    (v16 : Vec Ideal S2048x768 .bf16) (v19 v11 v12 : Vec Ideal S768 .f32) (p : Fin 160) (q : Fin 768) (r : Fin 512)
    (hr : ∀ k : Fin 512, BitVec.ofNat 32 k.val = (v0 (ix3 (0 : Fin 1) (⟨p.val, by omega⟩ : Fin 344) (0 : Fin 1)) : BitVec 32) ↔ k = r) :
    k0_pay8 (F := Ideal) v11 v12 (k0_pay5 v0 v8 v13 v16 v19) (k0_pay6 v0 v8 v13 v16 v19) (k0_pay7 (F := Ideal)) (ix3 (0 : Fin 1) p q)
      = ln (tok (fun d : Fin 2048 => (v13 (ix3 (0 : Fin 1) p d) : EReal)) (fun d h => (v16 (ix2 d h) : EReal)) (fun h => (v19 (ix1 h) : EReal))
          (fun h => (v8 (ix2 r h) : EReal))) (fun h => (v11 (ix1 h) : EReal)) (fun h => (v12 (ix1 h) : EReal)) q :=
  piece_apply (lo := 0) v0 v8 v13 v16 v19 v11 v12 dot_S160x2048_S2048x768_S160x768_1_0_0_1_n_n
    shapeCasts_S1x160x2048_S160x2048 shapeCasts_S2048x768_S2048x768 bitsLt_bf16_f32 shapeCasts_S768_S1x768
    broadcasts_S1x768_S160x768 slices_S344x768_o0_0_S160x768 reduces_S160x768_S160 (.inl rfl) rfl shapeCasts_S160_S160x1
    broadcasts_S160x1_S160x768 shapeCasts_S160x768_S1x160x768 rfl rfl (fun _ _ => rfl) (fun _ _ => rfl) (fun _ _ => rfl)
    (fun _ _ => rfl) p q ⟨p.val, by omega⟩ (Nat.zero_add _).symm r hr

/-- Rows 160 to 319 (relation tokens). -/
theorem piece_rel (v0 : Vec Ideal S1x344x1 .i32) (v8 : Vec Ideal S512x768 .bf16) (v52 : Vec Ideal S1x160x1024 .f32)
    (v55 : Vec Ideal S1024x768 .bf16) (v58 v11 v12 : Vec Ideal S768 .f32) (p : Fin 160) (q : Fin 768) (r : Fin 512)
    (hr : ∀ k : Fin 512, BitVec.ofNat 32 k.val = (v0 (ix3 (0 : Fin 1) (⟨160 + p.val, by omega⟩ : Fin 344) (0 : Fin 1)) : BitVec 32) ↔ k = r) :
    k0_pay11 (F := Ideal) v12 (k0_pay9 (k0_pay2 v0 v8) v52 v55 v58) (k0_pay10 v11) (ix3 (0 : Fin 1) p q)
      = ln (tok (fun d : Fin 1024 => (v52 (ix3 (0 : Fin 1) p d) : EReal)) (fun d h => (v55 (ix2 d h) : EReal)) (fun h => (v58 (ix1 h) : EReal))
          (fun h => (v8 (ix2 r h) : EReal))) (fun h => (v11 (ix1 h) : EReal)) (fun h => (v12 (ix1 h) : EReal)) q :=
  piece_apply (lo := 160) v0 v8 v52 v55 v58 v11 v12 dot_S160x1024_S1024x768_S160x768_1_0_0_1_n_n
    shapeCasts_S1x160x1024_S160x1024 shapeCasts_S1024x768_S1024x768 bitsLt_bf16_f32 shapeCasts_S768_S1x768
    broadcasts_S1x768_S160x768 slices_S344x768_o160_0_S160x768 reduces_S160x768_S160 (.inl rfl) rfl shapeCasts_S160_S160x1
    broadcasts_S160x1_S160x768 shapeCasts_S160x768_S1x160x768 rfl rfl (fun _ _ => rfl) (fun _ _ => rfl) (fun _ _ => rfl)
    (fun _ _ => rfl) p q ⟨160 + p.val, by omega⟩ rfl r hr

/-- Rows 320 to 335 (frame tokens). -/
theorem piece_frm (v0 : Vec Ideal S1x344x1 .i32) (v8 : Vec Ideal S512x768 .bf16) (v91 : Vec Ideal S1x16x2048 .f32)
    (v94 : Vec Ideal S2048x768 .bf16) (v97 v11 v12 : Vec Ideal S768 .f32) (p : Fin 16) (q : Fin 768) (r : Fin 512)
    (hr : ∀ k : Fin 512, BitVec.ofNat 32 k.val = (v0 (ix3 (0 : Fin 1) (⟨320 + p.val, by omega⟩ : Fin 344) (0 : Fin 1)) : BitVec 32) ↔ k = r) :
    k0_pay13 (F := Ideal) (k0_pay12 (k0_pay2 v0 v8) v11 v12 v91 v94 v97) (ix3 (0 : Fin 1) p q)
      = ln (tok (fun d : Fin 2048 => (v91 (ix3 (0 : Fin 1) p d) : EReal)) (fun d h => (v94 (ix2 d h) : EReal)) (fun h => (v97 (ix1 h) : EReal))
          (fun h => (v8 (ix2 r h) : EReal))) (fun h => (v11 (ix1 h) : EReal)) (fun h => (v12 (ix1 h) : EReal)) q :=
  piece_apply (lo := 320) v0 v8 v91 v94 v97 v11 v12 dot_S16x2048_S2048x768_S16x768_1_0_0_1_n_n
    shapeCasts_S1x16x2048_S16x2048 shapeCasts_S2048x768_S2048x768 bitsLt_bf16_f32 shapeCasts_S768_S1x768
    broadcasts_S1x768_S16x768 slices_S344x768_o320_0_S16x768 reduces_S16x768_S16 (.inl rfl) rfl shapeCasts_S16_S16x1
    broadcasts_S16x1_S16x768 shapeCasts_S16x768_S1x16x768 rfl rfl (fun _ _ => rfl) (fun _ _ => rfl) (fun _ _ => rfl)
    (fun _ _ => rfl) p q ⟨320 + p.val, by omega⟩ rfl r hr

/-- Rows 336 to 343 (action tokens). -/
theorem piece_act (v0 : Vec Ideal S1x344x1 .i32) (v8 : Vec Ideal S512x768 .bf16) (v130 : Vec Ideal S1x8x2048 .f32)
    (v133 : Vec Ideal S2048x768 .bf16) (v136 v11 v12 : Vec Ideal S768 .f32) (p : Fin 8) (q : Fin 768) (r : Fin 512)
    (hr : ∀ k : Fin 512, BitVec.ofNat 32 k.val = (v0 (ix3 (0 : Fin 1) (⟨336 + p.val, by omega⟩ : Fin 344) (0 : Fin 1)) : BitVec 32) ↔ k = r) :
    k0_pay1 (F := Ideal) (k0_pay14 (k0_pay2 v0 v8) v11 v12 v130 v133 v136) (ix3 (0 : Fin 1) p q)
      = ln (tok (fun d : Fin 2048 => (v130 (ix3 (0 : Fin 1) p d) : EReal)) (fun d h => (v133 (ix2 d h) : EReal)) (fun h => (v136 (ix1 h) : EReal))
          (fun h => (v8 (ix2 r h) : EReal))) (fun h => (v11 (ix1 h) : EReal)) (fun h => (v12 (ix1 h) : EReal)) q :=
  piece_apply (lo := 336) v0 v8 v130 v133 v136 v11 v12 dot_S8x2048_S2048x768_S8x768_1_0_0_1_n_n
    shapeCasts_S1x8x2048_S8x2048 shapeCasts_S2048x768_S2048x768 bitsLt_bf16_f32 shapeCasts_S768_S1x768
    broadcasts_S1x768_S8x768 slices_S344x768_o336_0_S8x768 reduces_S8x768_S8 (.inl rfl) rfl shapeCasts_S8_S8x1
    broadcasts_S8x1_S8x768 shapeCasts_S8x768_S1x8x768 rfl rfl (fun _ _ => rfl) (fun _ _ => rfl) (fun _ _ => rfl)
    (fun _ _ => rfl) p q ⟨336 + p.val, by omega⟩ rfl r hr

end Cert.KernelIdeal.Rows

end
-- ==== Proof.KernelRunA.lean ====
/-
  What the kernel body leaves in the output block: its four stores write four consecutive runs of token rows (rows 0 to
  159, 160 to 319, 320 to 335, 336 to 343) which together tile the block, so the block read back is ONE function of the
  block index as soon as each stored run agrees with that function row by row.
-/
import proofs.«400087_j58643483459633_3_alg».proof.Proof.Gen.KernelIdeal.Frame
import Idealize.ShloMosaic.Lib.Pipeline.Value
import Idealize.ShloMosaic.PureOps.Ideal
import Idealize.ShloMosaic.Lib.ValueIdx
import Idealize.ShloMosaic.Lib.Tactic

noncomputable section

namespace Cert.KernelIdeal.OE

open Cert.KernelIdeal Cert.KernelIdeal.Gen Idealize.ShloMosaic Idealize.ShloMosaic.TcCoe Idealize.SL.Sem
open Idealize.ShloMosaic.ValueIdx

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- A stored run of `n` token rows starting at row `lo` of the block agrees with a function `Gb` of the block index as soon as
    it does row by row. -/
theorem piece_agrees (n lo : Nat) (inb : ∀ a, (![0, lo, 0] : Fin 3 → Nat) a + (![1, n, 768] : Fin 3 → Nat) a ≤ S1x344x768.size a)
    (hlo : lo + n ≤ 344)
    (w : (⟨3, ![1, n, 768]⟩ : Shape).Idx → EReal) (Gb : S1x344x768.Idx → EReal)
    (hw : ∀ (p : Fin n) (q : Fin 768), w (ix3 (0 : Fin 1) p q) = Gb (ix3 (0 : Fin 1) (⟨lo + p.val, by have := p.isLt; omega⟩ : Fin 344) q))
    (x : (Rect.unit (s := S1x344x768) ![0, lo, 0] ![1, n, 768] inb).shape.Idx) :
    w x = Gb ((Rect.unit (s := S1x344x768) ![0, lo, 0] ![1, n, 768] inb).emb x) := by
  obtain ⟨a, p, q, rfl⟩ : ∃ (a : Fin 1) (p : Fin n) (q : Fin 768), x = ix3 a p q := ⟨x 0, x 1, x 2, eq_ix3 x⟩
  obtain rfl : a = 0 := Subsingleton.elim _ _
  rw [hw p q]
  congr 1
  funext d
  apply Fin.ext
  match d with
  | ⟨0, _⟩ => rfl
  | ⟨1, _⟩ => show lo + p.val = lo + 1 * p.val; omega
  | ⟨2, _⟩ => show q.val = 0 + 1 * q.val; omega

/-- What the body's run leaves in the output's staging buffer: one function `Gb` of the block index, as soon as each of the
    four stored runs of rows (object, relation, frame and action tokens) agrees with it row by row. -/
theorem out_eq (c : Dev nD) (i : grid0.Coords) (arg1 : Memref sig .tc .vmem S1x160x2048 .f32) (harg1 : arg1.IsWhole) (arg2 : Memref sig .tc .vmem S1x160x1024 .f32) (harg2 : arg2.IsWhole) (arg3 : Memref sig .tc .vmem S1x16x2048 .f32) (harg3 : arg3.IsWhole) (arg4 : Memref sig .tc .vmem S1x8x2048 .f32) (harg4 : arg4.IsWhole) (arg5 : Memref sig .tc .vmem S1x344x1 .i32) (harg5 : arg5.IsWhole) (arg6 : Memref sig .tc .vmem S2048x768 .bf16) (harg6 : arg6.IsWhole) (arg7 : Memref sig .tc .vmem S768 .f32) (harg7 : arg7.IsWhole) (arg8 : Memref sig .tc .vmem S1024x768 .bf16) (harg8 : arg8.IsWhole) (arg9 : Memref sig .tc .vmem S768 .f32) (harg9 : arg9.IsWhole) (arg10 : Memref sig .tc .vmem S2048x768 .bf16) (harg10 : arg10.IsWhole) (arg11 : Memref sig .tc .vmem S768 .f32) (harg11 : arg11.IsWhole) (arg12 : Memref sig .tc .vmem S2048x768 .bf16) (harg12 : arg12.IsWhole) (arg13 : Memref sig .tc .vmem S768 .f32) (harg13 : arg13.IsWhole) (arg14 : Memref sig .tc .vmem S512x768 .bf16) (harg14 : arg14.IsWhole) (arg15 : Memref sig .tc .vmem S768 .f32) (harg15 : arg15.IsWhole) (arg16 : Memref sig .tc .vmem S768 .f32) (harg16 : arg16.IsWhole) (arg17 : Memref sig .tc .vmem S1x344x768 .f32) (harg17 : arg17.IsWhole)
    (x0 : Vec Ideal S1x160x2048 .f32) (x1 : Vec Ideal S1x160x1024 .f32) (x2 : Vec Ideal S1x16x2048 .f32) (x3 : Vec Ideal S1x8x2048 .f32) (x4 : Vec Ideal S1x344x1 .i32) (x5 : Vec Ideal S2048x768 .bf16) (x6 : Vec Ideal S768 .f32) (x7 : Vec Ideal S1024x768 .bf16) (x8 : Vec Ideal S768 .f32) (x9 : Vec Ideal S2048x768 .bf16) (x10 : Vec Ideal S768 .f32) (x11 : Vec Ideal S2048x768 .bf16) (x12 : Vec Ideal S768 .f32) (x13 : Vec Ideal S512x768 .bf16) (x14 : Vec Ideal S768 .f32) (x15 : Vec Ideal S768 .f32)
    (Gb : S1x344x768.Idx → EReal)
    (hobj : ∀ (p : Fin 160) (q : Fin 768), k0_pay8 (F := Ideal) x14 x15 (k0_pay5 x4 x13 x0 x5 x6) (k0_pay6 x4 x13 x0 x5 x6) (k0_pay7 (F := Ideal)) (ix3 (0 : Fin 1) p q)
        = Gb (ix3 (0 : Fin 1) (⟨0 + p.val, by have := p.isLt; omega⟩ : Fin 344) q))
    (hrel : ∀ (p : Fin 160) (q : Fin 768), k0_pay11 (F := Ideal) x15 (k0_pay9 (k0_pay2 x4 x13) x1 x7 x8) (k0_pay10 x14) (ix3 (0 : Fin 1) p q)
        = Gb (ix3 (0 : Fin 1) (⟨160 + p.val, by have := p.isLt; omega⟩ : Fin 344) q))
    (hfrm : ∀ (p : Fin 16) (q : Fin 768), k0_pay13 (F := Ideal) (k0_pay12 (k0_pay2 x4 x13) x14 x15 x2 x9 x10) (ix3 (0 : Fin 1) p q)
        = Gb (ix3 (0 : Fin 1) (⟨320 + p.val, by have := p.isLt; omega⟩ : Fin 344) q))
    (hact : ∀ (p : Fin 8) (q : Fin 768), k0_pay1 (F := Ideal) (k0_pay14 (k0_pay2 x4 x13) x14 x15 x3 x11 x12) (ix3 (0 : Fin 1) p q)
        = Gb (ix3 (0 : Fin 1) (⟨336 + p.val, by have := p.isLt; omega⟩ : Fin 344) q)) :
    out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14 x15 = Gb := by
  unfold out0_A_16
  rw [View.read_writes_eq_canon _ _ _ (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14 x15)]
  funext y
  refine View.canon_apply_of_pieces Gb _ ?_ y (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14 x15 y)
  unfold kernelRun0_A
  dsimp only
  sl_unfold_words
  simp only [View.readAt_eq_ld, harg1.read_unread, harg2.read_unread, harg3.read_unread, harg4.read_unread, harg5.read_unread,
    harg6.read_unread, harg7.read_unread, harg8.read_unread, harg9.read_unread, harg10.read_unread, harg11.read_unread,
    harg12.read_unread, harg13.read_unread, harg14.read_unread, harg15.read_unread, harg16.read_unread,
    View.ld_unit_zero (S := S1x160x2048) hz3, View.ld_unit_zero (S := S1x160x1024) hz3, View.ld_unit_zero (S := S1x16x2048) hz3,
    View.ld_unit_zero (S := S1x8x2048) hz3, View.ld_unit_zero (S := S1x344x1) hz3, View.ld_unit_zero (S := S2048x768) hz2,
    View.ld_unit_zero (S := S1024x768) hz2, View.ld_unit_zero (S := S512x768) hz2, View.ld_unit_zero (S := S768) hz1]
  refine List.forall_mem_cons.mpr ⟨?_, List.forall_mem_cons.mpr ⟨?_, List.forall_mem_cons.mpr ⟨?_, List.forall_mem_cons.mpr ⟨?_, fun _ h => absurd h List.not_mem_nil⟩⟩⟩⟩
  · exact piece_agrees 8 336 inb_S1x344x768_S1x8x768_0_336_0 (by omega) _ Gb hact
  · exact piece_agrees 16 320 inb_S1x344x768_S1x16x768_0_320_0 (by omega) _ Gb hfrm
  · exact piece_agrees 160 160 inb_S1x344x768_S1x160x768_0_160_0 (by omega) _ Gb hrel
  · exact piece_agrees 160 0 inb_S1x344x768_S1x160x768_0_0_0 (by omega) _ Gb hobj

end Cert.KernelIdeal.OE

end
-- ==== Proof.KernelRunB.lean ====
/-
  The input blocks of the kernel body at a grid point, read at an index: the grid has one point per sample; a per-sample
  window's block at point `t` is sample `t` of its array, every other window's block is its whole array. Here: the windows
  over argument arrays no host operation writes.
-/
import proofs.«400087_j58643483459633_3_alg».proof.Proof.Gen.KernelIdeal.Frame
import Idealize.ShloMosaic.Lib.Pipeline.Value
import Idealize.ShloMosaic.PureOps.Ideal
import Idealize.ShloMosaic.Lib.ValueIdx
import Idealize.ShloMosaic.Lib.Tactic

noncomputable section

namespace Cert.KernelIdeal.OE

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- A grid point as a sample number. -/
def bOf (t : Fin cfg0.N) : Fin 64 := ⟨t.val, by have := t.isLt; have h : cfg0.N = 64 := N_0; omega⟩

/-! ## The printed index maps, decided over the grid: a per-sample window sits at the point's sample, every other window
    at block zero -/
theorem idx_facts_0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx_facts_1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx_facts_2 : ∀ t : Fin cfg0.N, win0_2.index t (0 : Fin 3) = t.val ∧ win0_2.index t (1 : Fin 3) = 0 ∧ win0_2.index t (2 : Fin 3) = 0 :=
  (by decide +kernel : ∀ t : Fin grid0.N, _)
theorem idx_facts_3 : ∀ t : Fin cfg0.N, win0_3.index t (0 : Fin 3) = t.val ∧ win0_3.index t (1 : Fin 3) = 0 ∧ win0_3.index t (2 : Fin 3) = 0 :=
  (by decide +kernel : ∀ t : Fin grid0.N, _)
theorem idx_facts_4 : ∀ t : Fin cfg0.N, win0_4.index t (0 : Fin 3) = t.val ∧ win0_4.index t (1 : Fin 3) = 0 ∧ win0_4.index t (2 : Fin 3) = 0 :=
  (by decide +kernel : ∀ t : Fin grid0.N, _)
theorem idx_facts_16 : ∀ t : Fin cfg0.N, win0_16.index t (0 : Fin 3) = t.val ∧ win0_16.index t (1 : Fin 3) = 0 ∧ win0_16.index t (2 : Fin 3) = 0 :=
  (by decide +kernel : ∀ t : Fin grid0.N, _)
theorem idx_facts_5 : ∀ t : Fin cfg0.N, win0_5.index t (0 : Fin 2) = 0 ∧ win0_5.index t (1 : Fin 2) = 0 :=
  (by decide +kernel : ∀ t : Fin grid0.N, _)
theorem idx_facts_7 : ∀ t : Fin cfg0.N, win0_7.index t (0 : Fin 2) = 0 ∧ win0_7.index t (1 : Fin 2) = 0 :=
  (by decide +kernel : ∀ t : Fin grid0.N, _)
theorem idx_facts_9 : ∀ t : Fin cfg0.N, win0_9.index t (0 : Fin 2) = 0 ∧ win0_9.index t (1 : Fin 2) = 0 :=
  (by decide +kernel : ∀ t : Fin grid0.N, _)
theorem idx_facts_11 : ∀ t : Fin cfg0.N, win0_11.index t (0 : Fin 2) = 0 ∧ win0_11.index t (1 : Fin 2) = 0 :=
  (by decide +kernel : ∀ t : Fin grid0.N, _)
theorem idx_facts_13 : ∀ t : Fin cfg0.N, win0_13.index t (0 : Fin 2) = 0 ∧ win0_13.index t (1 : Fin 2) = 0 :=
  (by decide +kernel : ∀ t : Fin grid0.N, _)
theorem idx_facts_6 : ∀ t : Fin cfg0.N, win0_6.index t (0 : Fin 1) = 0 :=
  (by decide +kernel : ∀ t : Fin grid0.N, _)
theorem idx_facts_8 : ∀ t : Fin cfg0.N, win0_8.index t (0 : Fin 1) = 0 :=
  (by decide +kernel : ∀ t : Fin grid0.N, _)
theorem idx_facts_10 : ∀ t : Fin cfg0.N, win0_10.index t (0 : Fin 1) = 0 :=
  (by decide +kernel : ∀ t : Fin grid0.N, _)
theorem idx_facts_12 : ∀ t : Fin cfg0.N, win0_12.index t (0 : Fin 1) = 0 :=
  (by decide +kernel : ∀ t : Fin grid0.N, _)
theorem idx_facts_14 : ∀ t : Fin cfg0.N, win0_14.index t (0 : Fin 1) = 0 :=
  (by decide +kernel : ∀ t : Fin grid0.N, _)
theorem idx_facts_15 : ∀ t : Fin cfg0.N, win0_15.index t (0 : Fin 1) = 0 :=
  (by decide +kernel : ∀ t : Fin grid0.N, _)

/-! ## The input blocks at an index: each is its argument array at the point's sample -/

theorem blk0 (c : Dev nD) (t : Fin cfg0.N) (p : Fin 160) (d : Fin 2048) :
    (iblk m c 0 t : Vec Ideal S1x160x2048 .f32) (ix3 (0 : Fin 1) p d)
      = (m ((c.tc : Thread nD τ).loc main_arg0) : Vec Ideal S64x160x2048 .f32) (ix3 (bOf t) p d) := by
  obtain ⟨e0, e1, e2⟩ := idx_facts_0 t
  unfold iblk
  rw [View.read_apply]
  show V m c main_arg0 _ = _
  rw [V_main_arg0]
  congr 1
  funext a
  apply Fin.ext
  match a with
  | ⟨0, _⟩ => show win0_0.index t (0 : Fin 3) * 1 + 1 * 0 = t.val; rw [e0]; omega
  | ⟨1, _⟩ => show win0_0.index t (1 : Fin 3) * 160 + 1 * p.val = p.val; rw [e1]; omega
  | ⟨2, _⟩ => show win0_0.index t (2 : Fin 3) * 2048 + 1 * d.val = d.val; rw [e2]; omega

theorem blk1 (c : Dev nD) (t : Fin cfg0.N) (p : Fin 160) (d : Fin 1024) :
    (iblk m c 1 t : Vec Ideal S1x160x1024 .f32) (ix3 (0 : Fin 1) p d)
      = (m ((c.tc : Thread nD τ).loc main_arg1) : Vec Ideal S64x160x1024 .f32) (ix3 (bOf t) p d) := by
  obtain ⟨e0, e1, e2⟩ := idx_facts_1 t
  unfold iblk
  rw [View.read_apply]
  show V m c main_arg1 _ = _
  rw [V_main_arg1]
  congr 1
  funext a
  apply Fin.ext
  match a with
  | ⟨0, _⟩ => show win0_1.index t (0 : Fin 3) * 1 + 1 * 0 = t.val; rw [e0]; omega
  | ⟨1, _⟩ => show win0_1.index t (1 : Fin 3) * 160 + 1 * p.val = p.val; rw [e1]; omega
  | ⟨2, _⟩ => show win0_1.index t (2 : Fin 3) * 1024 + 1 * d.val = d.val; rw [e2]; omega

theorem blk2 (c : Dev nD) (t : Fin cfg0.N) (p : Fin 16) (d : Fin 2048) :
    (iblk m c 2 t : Vec Ideal S1x16x2048 .f32) (ix3 (0 : Fin 1) p d)
      = (m ((c.tc : Thread nD τ).loc main_arg2) : Vec Ideal S64x16x2048 .f32) (ix3 (bOf t) p d) := by
  obtain ⟨e0, e1, e2⟩ := idx_facts_2 t
  unfold iblk
  rw [View.read_apply]
  show V m c main_arg2 _ = _
  rw [V_main_arg2]
  congr 1
  funext a
  apply Fin.ext
  match a with
  | ⟨0, _⟩ => show win0_2.index t (0 : Fin 3) * 1 + 1 * 0 = t.val; rw [e0]; omega
  | ⟨1, _⟩ => show win0_2.index t (1 : Fin 3) * 16 + 1 * p.val = p.val; rw [e1]; omega
  | ⟨2, _⟩ => show win0_2.index t (2 : Fin 3) * 2048 + 1 * d.val = d.val; rw [e2]; omega

theorem blk3 (c : Dev nD) (t : Fin cfg0.N) (p : Fin 8) (d : Fin 2048) :
    (iblk m c 3 t : Vec Ideal S1x8x2048 .f32) (ix3 (0 : Fin 1) p d)
      = (m ((c.tc : Thread nD τ).loc main_arg3) : Vec Ideal S64x8x2048 .f32) (ix3 (bOf t) p d) := by
  obtain ⟨e0, e1, e2⟩ := idx_facts_3 t
  unfold iblk
  rw [View.read_apply]
  show V m c main_arg3 _ = _
  rw [V_main_arg3]
  congr 1
  funext a
  apply Fin.ext
  match a with
  | ⟨0, _⟩ => show win0_3.index t (0 : Fin 3) * 1 + 1 * 0 = t.val; rw [e0]; omega
  | ⟨1, _⟩ => show win0_3.index t (1 : Fin 3) * 8 + 1 * p.val = p.val; rw [e1]; omega
  | ⟨2, _⟩ => show win0_3.index t (2 : Fin 3) * 2048 + 1 * d.val = d.val; rw [e2]; omega

theorem blk6 (c : Dev nD) (t : Fin cfg0.N) (h : Fin 768) :
    (iblk m c 6 t : Vec Ideal S768 .f32) (ix1 h) = (m ((c.tc : Thread nD τ).loc main_arg6) : Vec Ideal S768 .f32) (ix1 h) := by
  have e0 := idx_facts_6 t
  unfold iblk
  rw [View.read_apply]
  show V m c main_arg6 _ = _
  rw [V_main_arg6]
  congr 1
  funext a
  apply Fin.ext
  match a with
  | ⟨0, _⟩ => show win0_6.index t (0 : Fin 1) * 768 + 1 * h.val = h.val; rw [e0]; omega

theorem blk8 (c : Dev nD) (t : Fin cfg0.N) (h : Fin 768) :
    (iblk m c 8 t : Vec Ideal S768 .f32) (ix1 h) = (m ((c.tc : Thread nD τ).loc main_arg8) : Vec Ideal S768 .f32) (ix1 h) := by
  have e0 := idx_facts_8 t
  unfold iblk
  rw [View.read_apply]
  show V m c main_arg8 _ = _
  rw [V_main_arg8]
  congr 1
  funext a
  apply Fin.ext
  match a with
  | ⟨0, _⟩ => show win0_8.index t (0 : Fin 1) * 768 + 1 * h.val = h.val; rw [e0]; omega

theorem blk10 (c : Dev nD) (t : Fin cfg0.N) (h : Fin 768) :
    (iblk m c 10 t : Vec Ideal S768 .f32) (ix1 h) = (m ((c.tc : Thread nD τ).loc main_arg10) : Vec Ideal S768 .f32) (ix1 h) := by
  have e0 := idx_facts_10 t
  unfold iblk
  rw [View.read_apply]
  show V m c main_arg10 _ = _
  rw [V_main_arg10]
  congr 1
  funext a
  apply Fin.ext
  match a with
  | ⟨0, _⟩ => show win0_10.index t (0 : Fin 1) * 768 + 1 * h.val = h.val; rw [e0]; omega

theorem blk12 (c : Dev nD) (t : Fin cfg0.N) (h : Fin 768) :
    (iblk m c 12 t : Vec Ideal S768 .f32) (ix1 h) = (m ((c.tc : Thread nD τ).loc main_arg12) : Vec Ideal S768 .f32) (ix1 h) := by
  have e0 := idx_facts_12 t
  unfold iblk
  rw [View.read_apply]
  show V m c main_arg12 _ = _
  rw [V_main_arg12]
  congr 1
  funext a
  apply Fin.ext
  match a with
  | ⟨0, _⟩ => show win0_12.index t (0 : Fin 1) * 768 + 1 * h.val = h.val; rw [e0]; omega

theorem blk14 (c : Dev nD) (t : Fin cfg0.N) (h : Fin 768) :
    (iblk m c 14 t : Vec Ideal S768 .f32) (ix1 h) = (m ((c.tc : Thread nD τ).loc main_arg14) : Vec Ideal S768 .f32) (ix1 h) := by
  have e0 := idx_facts_14 t
  unfold iblk
  rw [View.read_apply]
  show V m c main_arg14 _ = _
  rw [V_main_arg14]
  congr 1
  funext a
  apply Fin.ext
  match a with
  | ⟨0, _⟩ => show win0_14.index t (0 : Fin 1) * 768 + 1 * h.val = h.val; rw [e0]; omega

theorem blk15 (c : Dev nD) (t : Fin cfg0.N) (h : Fin 768) :
    (iblk m c 15 t : Vec Ideal S768 .f32) (ix1 h) = (m ((c.tc : Thread nD τ).loc main_arg15) : Vec Ideal S768 .f32) (ix1 h) := by
  have e0 := idx_facts_15 t
  unfold iblk
  rw [View.read_apply]
  show V m c main_arg15 _ = _
  rw [V_main_arg15]
  congr 1
  funext a
  apply Fin.ext
  match a with
  | ⟨0, _⟩ => show win0_15.index t (0 : Fin 1) * 768 + 1 * h.val = h.val; rw [e0]; omega

end Cert.KernelIdeal.OE

end
-- ==== Proof.KernelRunC.lean ====
/-
  The input blocks over arrays the host operations before the call wrote, read at an index: the four weight matrices and the
  order table rounded to bf16 (the identity on the extended reals), and the index words clamped into [0, 511] and given a
  trailing unit axis.
-/
import proofs.«400087_j58643483459633_3_alg».proof.Proof.KernelRunB
import Idealize.ShloMosaic.Lib.StableHlo.Run

noncomputable section

namespace Cert.KernelIdeal.OE

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## The arrays the host operations before the call wrote: the weights and the table rounded to bf16 (the identity on
    the extended reals), the index words clamped into [0, 511] -/

theorem V_main_v2 (c : Dev nD) : V m c main_v2
    = truncf (F := Ideal) (s := S2048x768) (φ := .f32) .bf16 (m ((c.tc : Thread nD τ).loc main_arg5)) bitsLt_bf16_f32 := by
  dsimp only [Gen.V, Gen.V0]
  simp only [Gen.hostOps0, Gen.hostOps0_1, Gen.hostOps0_2, List.flatten_cons, List.flatten_nil, List.append_nil, List.cons_append, List.nil_append]
  after_results

theorem V_main_v3 (c : Dev nD) : V m c main_v3
    = truncf (F := Ideal) (s := S1024x768) (φ := .f32) .bf16 (m ((c.tc : Thread nD τ).loc main_arg7)) bitsLt_bf16_f32 := by
  dsimp only [Gen.V, Gen.V0]
  simp only [Gen.hostOps0, Gen.hostOps0_1, Gen.hostOps0_2, List.flatten_cons, List.flatten_nil, List.append_nil, List.cons_append, List.nil_append]
  after_results

theorem V_main_v4 (c : Dev nD) : V m c main_v4
    = truncf (F := Ideal) (s := S2048x768) (φ := .f32) .bf16 (m ((c.tc : Thread nD τ).loc main_arg9)) bitsLt_bf16_f32 := by
  dsimp only [Gen.V, Gen.V0]
  simp only [Gen.hostOps0, Gen.hostOps0_1, Gen.hostOps0_2, List.flatten_cons, List.flatten_nil, List.append_nil, List.cons_append, List.nil_append]
  after_results

theorem V_main_v5 (c : Dev nD) : V m c main_v5
    = truncf (F := Ideal) (s := S2048x768) (φ := .f32) .bf16 (m ((c.tc : Thread nD τ).loc main_arg11)) bitsLt_bf16_f32 := by
  dsimp only [Gen.V, Gen.V0]
  simp only [Gen.hostOps0, Gen.hostOps0_1, Gen.hostOps0_2, List.flatten_cons, List.flatten_nil, List.append_nil, List.cons_append, List.nil_append]
  after_results

theorem V_main_v6 (c : Dev nD) : V m c main_v6
    = truncf (F := Ideal) (s := S512x768) (φ := .f32) .bf16 (m ((c.tc : Thread nD τ).loc main_arg13)) bitsLt_bf16_f32 := by
  dsimp only [Gen.V, Gen.V0]
  simp only [Gen.hostOps0, Gen.hostOps0_1, Gen.hostOps0_2, List.flatten_cons, List.flatten_nil, List.append_nil, List.cons_append, List.nil_append]
  after_results

theorem blk5 (c : Dev nD) (t : Fin cfg0.N) (d : Fin 2048) (h : Fin 768) :
    (iblk m c 5 t : Vec Ideal S2048x768 .bf16) (ix2 d h) = (m ((c.tc : Thread nD τ).loc main_arg5) : Vec Ideal S2048x768 .f32) (ix2 d h) := by
  obtain ⟨e0, e1⟩ := idx_facts_5 t
  unfold iblk
  rw [View.read_apply]
  show V m c main_v2 _ = _
  rw [V_main_v2]
  refine Eq.trans (truncf_apply (s := S2048x768) (φ := .f32) (ψ := .bf16) (m ((c.tc : Thread nD τ).loc main_arg5)) bitsLt_bf16_f32 _) ?_
  congr 1
  funext a
  apply Fin.ext
  match a with
  | ⟨0, _⟩ => show win0_5.index t (0 : Fin 2) * 2048 + 1 * d.val = d.val; rw [e0]; omega
  | ⟨1, _⟩ => show win0_5.index t (1 : Fin 2) * 768 + 1 * h.val = h.val; rw [e1]; omega

theorem blk7 (c : Dev nD) (t : Fin cfg0.N) (d : Fin 1024) (h : Fin 768) :
    (iblk m c 7 t : Vec Ideal S1024x768 .bf16) (ix2 d h) = (m ((c.tc : Thread nD τ).loc main_arg7) : Vec Ideal S1024x768 .f32) (ix2 d h) := by
  obtain ⟨e0, e1⟩ := idx_facts_7 t
  unfold iblk
  rw [View.read_apply]
  show V m c main_v3 _ = _
  rw [V_main_v3]
  refine Eq.trans (truncf_apply (s := S1024x768) (φ := .f32) (ψ := .bf16) (m ((c.tc : Thread nD τ).loc main_arg7)) bitsLt_bf16_f32 _) ?_
  congr 1
  funext a
  apply Fin.ext
  match a with
  | ⟨0, _⟩ => show win0_7.index t (0 : Fin 2) * 1024 + 1 * d.val = d.val; rw [e0]; omega
  | ⟨1, _⟩ => show win0_7.index t (1 : Fin 2) * 768 + 1 * h.val = h.val; rw [e1]; omega

theorem blk9 (c : Dev nD) (t : Fin cfg0.N) (d : Fin 2048) (h : Fin 768) :
    (iblk m c 9 t : Vec Ideal S2048x768 .bf16) (ix2 d h) = (m ((c.tc : Thread nD τ).loc main_arg9) : Vec Ideal S2048x768 .f32) (ix2 d h) := by
  obtain ⟨e0, e1⟩ := idx_facts_9 t
  unfold iblk
  rw [View.read_apply]
  show V m c main_v4 _ = _
  rw [V_main_v4]
  refine Eq.trans (truncf_apply (s := S2048x768) (φ := .f32) (ψ := .bf16) (m ((c.tc : Thread nD τ).loc main_arg9)) bitsLt_bf16_f32 _) ?_
  congr 1
  funext a
  apply Fin.ext
  match a with
  | ⟨0, _⟩ => show win0_9.index t (0 : Fin 2) * 2048 + 1 * d.val = d.val; rw [e0]; omega
  | ⟨1, _⟩ => show win0_9.index t (1 : Fin 2) * 768 + 1 * h.val = h.val; rw [e1]; omega

theorem blk11 (c : Dev nD) (t : Fin cfg0.N) (d : Fin 2048) (h : Fin 768) :
    (iblk m c 11 t : Vec Ideal S2048x768 .bf16) (ix2 d h) = (m ((c.tc : Thread nD τ).loc main_arg11) : Vec Ideal S2048x768 .f32) (ix2 d h) := by
  obtain ⟨e0, e1⟩ := idx_facts_11 t
  unfold iblk
  rw [View.read_apply]
  show V m c main_v5 _ = _
  rw [V_main_v5]
  refine Eq.trans (truncf_apply (s := S2048x768) (φ := .f32) (ψ := .bf16) (m ((c.tc : Thread nD τ).loc main_arg11)) bitsLt_bf16_f32 _) ?_
  congr 1
  funext a
  apply Fin.ext
  match a with
  | ⟨0, _⟩ => show win0_11.index t (0 : Fin 2) * 2048 + 1 * d.val = d.val; rw [e0]; omega
  | ⟨1, _⟩ => show win0_11.index t (1 : Fin 2) * 768 + 1 * h.val = h.val; rw [e1]; omega

theorem blk13 (c : Dev nD) (t : Fin cfg0.N) (d : Fin 512) (h : Fin 768) :
    (iblk m c 13 t : Vec Ideal S512x768 .bf16) (ix2 d h) = (m ((c.tc : Thread nD τ).loc main_arg13) : Vec Ideal S512x768 .f32) (ix2 d h) := by
  obtain ⟨e0, e1⟩ := idx_facts_13 t
  unfold iblk
  rw [View.read_apply]
  show V m c main_v6 _ = _
  rw [V_main_v6]
  refine Eq.trans (truncf_apply (s := S512x768) (φ := .f32) (ψ := .bf16) (m ((c.tc : Thread nD τ).loc main_arg13)) bitsLt_bf16_f32 _) ?_
  congr 1
  funext a
  apply Fin.ext
  match a with
  | ⟨0, _⟩ => show win0_13.index t (0 : Fin 2) * 512 + 1 * d.val = d.val; rw [e0]; omega
  | ⟨1, _⟩ => show win0_13.index t (1 : Fin 2) * 768 + 1 * h.val = h.val; rw [e1]; omega

theorem V_main_v1 (c : Dev nD) : (V m c main_v1 : IVec S64x344x1 32)
    = broadcastInDim S64x344x1 ![0, 1] bcast_S64x344_S64x344x1_0_1
        (minsi (broadcastInDim S64x344 ![] bcast_S_S64x344 (constantI S_ 32 511#32))
          (maxsi (broadcastInDim S64x344 ![] bcast_S_S64x344 (constantI S_ 32 0#32))
            (m ((c.tc : Thread nD τ).loc main_arg4) : IVec S64x344 32))) := by
  dsimp only [Gen.V, Gen.V0]
  simp only [Gen.hostOps0, Gen.hostOps0_1, Gen.hostOps0_2, List.flatten_cons, List.flatten_nil, List.append_nil, List.cons_append, List.nil_append]
  after_results
  rfl

theorem blk4 (c : Dev nD) (t : Fin cfg0.N) (t' : Fin 344) :
    (iblk m c 4 t : IVec S1x344x1 32) (ix3 (0 : Fin 1) t' (0 : Fin 1))
      = IntOp.minsi 511#32 (IntOp.maxsi 0#32 ((m ((c.tc : Thread nD τ).loc main_arg4) : IVec S64x344 32) (ix2 (bOf t) t'))) := by
  obtain ⟨e0, e1, e2⟩ := idx_facts_4 t
  unfold iblk
  rw [View.read_apply]
  show V m c main_v1 _ = _
  rw [V_main_v1]
  refine (broadcastInDim_apply _ _ _ _ (ix2 (bOf t) t') ?_).trans rfl
  intro a
  match a with
  | ⟨0, _⟩ => show t.val = win0_4.index t (0 : Fin 3) * 1 + 1 * 0; rw [e0]; omega
  | ⟨1, _⟩ => show t'.val = win0_4.index t (1 : Fin 3) * 344 + 1 * t'.val; rw [e1]; omega

end Cert.KernelIdeal.OE

end
-- ==== Proof.KernelRunD.lean ====
/-
  Each stored row of the kernel body is the result at its token, for any argument arrays `A` and sample `b` the loaded
  blocks agree with: the row's features, weights and bias are `A`'s, the block's index word is the clamped word of the
  token, and for a non-negative word the lane counter meets the clamped word exactly at the row the specification selects.
-/
import proofs.«400087_j58643483459633_3_alg».proof.Proof.KernelRows
import proofs.«400087_j58643483459633_3_alg».proof.Proof.Spec

noncomputable section

namespace Cert.KernelIdeal.OE

open Cert.KernelIdeal Cert.KernelIdeal.Gen Idealize.ShloMosaic
open Idealize.ShloMosaic.ValueIdx Cert.OrderEmbed

/-- A stored row of the obj run is the result at its token: the loaded blocks are the argument arrays at sample `b`, the
    index word of the block is the clamped word of the token, and the clamped word of a non-negative word selects its row. -/
theorem row_obj (A : Args) (b : Fin 64) (x4 : Vec Ideal S1x344x1 .i32) (x13 : Vec Ideal S512x768 .bf16)
    (x0 : Vec Ideal S1x160x2048 .f32) (x5 : Vec Ideal S2048x768 .bf16) (x6 x14 x15 : Vec Ideal S768 .f32)
    (hx : ∀ (p : Fin 160) (d : Fin 2048), (x0 (ix3 (0 : Fin 1) p d) : EReal) = A.x0 (ix3 b p d))
    (hW : ∀ (d : Fin 2048) (h : Fin 768), (x5 (ix2 d h) : EReal) = A.W0 (ix2 d h))
    (hb : ∀ h : Fin 768, (x6 (ix1 h) : EReal) = A.b0 (ix1 h))
    (hT : ∀ (r : Fin 512) (h : Fin 768), (x13 (ix2 r h) : EReal) = A.T (ix2 r h))
    (hg : ∀ h : Fin 768, (x14 (ix1 h) : EReal) = A.g (ix1 h))
    (hs : ∀ h : Fin 768, (x15 (ix1 h) : EReal) = A.s (ix1 h))
    (hid : ∀ t' : Fin 344, (x4 (ix3 (0 : Fin 1) t' (0 : Fin 1)) : BitVec 32) = IntOp.minsi 511#32 (IntOp.maxsi 0#32 (A.ids (ix2 b t'))))
    (hnn : ∀ t' : Fin 344, 0 ≤ (A.ids (ix2 b t')).toInt)
    (p : Fin 160) (q : Fin 768) (t' : Fin 344) (ht : t'.val = p.val) :
    k0_pay8 (F := Ideal) x14 x15 (k0_pay5 x4 x13 x0 x5 x6) (k0_pay6 x4 x13 x0 x5 x6) (k0_pay7 (F := Ideal)) (ix3 (0 : Fin 1) p q) = G A (ix3 b t' q) := by
  obtain rfl : t' = (⟨p.val, Nat.lt_trans p.isLt (by decide)⟩ : Fin 344) := Fin.ext ht
  have hr : ∀ k : Fin 512, BitVec.ofNat 32 k.val = (x4 (ix3 (0 : Fin 1) (⟨p.val, Nat.lt_trans p.isLt (by decide)⟩ : Fin 344) (0 : Fin 1)) : BitVec 32)
      ↔ k = rowOf (A.ids (ix2 b (⟨p.val, Nat.lt_trans p.isLt (by decide)⟩ : Fin 344))) := fun k => by
    rw [hid, clip_eq (hnn _)]; exact lane_eq_iff (hnn _) k
  refine (Rows.piece_obj x4 x13 x0 x5 x6 x14 x15 p q _ hr).trans ?_
  rw [G_ix3]
  unfold Gat
  rw [tokRow_obj A b p _ rfl]
  have e1 : (fun d : Fin 2048 => (x0 (ix3 (0 : Fin 1) p d) : EReal)) = fun d => A.x0 (ix3 b p d) := funext fun d => hx p d
  have e2 : (fun (d : Fin 2048) (h : Fin 768) => (x5 (ix2 d h) : EReal)) = fun d h => A.W0 (ix2 d h) := funext fun d => funext fun h => hW d h
  have e3 : (fun h : Fin 768 => (x6 (ix1 h) : EReal)) = fun h => A.b0 (ix1 h) := funext hb
  have e4 : (fun h : Fin 768 => (x13 (ix2 (rowOf (A.ids (ix2 b (⟨p.val, Nat.lt_trans p.isLt (by decide)⟩ : Fin 344)))) h) : EReal))
      = orow A b (⟨p.val, Nat.lt_trans p.isLt (by decide)⟩ : Fin 344) := funext fun h => hT _ h
  have e5 : (fun h : Fin 768 => (x14 (ix1 h) : EReal)) = fun h => A.g (ix1 h) := funext hg
  have e6 : (fun h : Fin 768 => (x15 (ix1 h) : EReal)) = fun h => A.s (ix1 h) := funext hs
  rw [e1, e2, e3, e4, e5, e6]

/-- A stored row of the rel run is the result at its token: the loaded blocks are the argument arrays at sample `b`, the
    index word of the block is the clamped word of the token, and the clamped word of a non-negative word selects its row. -/
theorem row_rel (A : Args) (b : Fin 64) (x4 : Vec Ideal S1x344x1 .i32) (x13 : Vec Ideal S512x768 .bf16)
    (x1 : Vec Ideal S1x160x1024 .f32) (x7 : Vec Ideal S1024x768 .bf16) (x8 x14 x15 : Vec Ideal S768 .f32)
    (hx : ∀ (p : Fin 160) (d : Fin 1024), (x1 (ix3 (0 : Fin 1) p d) : EReal) = A.x1 (ix3 b p d))
    (hW : ∀ (d : Fin 1024) (h : Fin 768), (x7 (ix2 d h) : EReal) = A.W1 (ix2 d h))
    (hb : ∀ h : Fin 768, (x8 (ix1 h) : EReal) = A.b1 (ix1 h))
    (hT : ∀ (r : Fin 512) (h : Fin 768), (x13 (ix2 r h) : EReal) = A.T (ix2 r h))
    (hg : ∀ h : Fin 768, (x14 (ix1 h) : EReal) = A.g (ix1 h))
    (hs : ∀ h : Fin 768, (x15 (ix1 h) : EReal) = A.s (ix1 h))
    (hid : ∀ t' : Fin 344, (x4 (ix3 (0 : Fin 1) t' (0 : Fin 1)) : BitVec 32) = IntOp.minsi 511#32 (IntOp.maxsi 0#32 (A.ids (ix2 b t'))))
    (hnn : ∀ t' : Fin 344, 0 ≤ (A.ids (ix2 b t')).toInt)
    (p : Fin 160) (q : Fin 768) (t' : Fin 344) (ht : t'.val = 160 + p.val) :
    k0_pay11 (F := Ideal) x15 (k0_pay9 (k0_pay2 x4 x13) x1 x7 x8) (k0_pay10 x14) (ix3 (0 : Fin 1) p q) = G A (ix3 b t' q) := by
  obtain rfl : t' = (⟨160 + p.val, Nat.lt_of_lt_of_le (Nat.add_lt_add_left p.isLt 160) (by decide)⟩ : Fin 344) := Fin.ext ht
  have hr : ∀ k : Fin 512, BitVec.ofNat 32 k.val = (x4 (ix3 (0 : Fin 1) (⟨160 + p.val, Nat.lt_of_lt_of_le (Nat.add_lt_add_left p.isLt 160) (by decide)⟩ : Fin 344) (0 : Fin 1)) : BitVec 32)
      ↔ k = rowOf (A.ids (ix2 b (⟨160 + p.val, Nat.lt_of_lt_of_le (Nat.add_lt_add_left p.isLt 160) (by decide)⟩ : Fin 344))) := fun k => by
    rw [hid, clip_eq (hnn _)]; exact lane_eq_iff (hnn _) k
  refine (Rows.piece_rel x4 x13 x1 x7 x8 x14 x15 p q _ hr).trans ?_
  rw [G_ix3]
  unfold Gat
  rw [tokRow_rel A b p _ rfl]
  have e1 : (fun d : Fin 1024 => (x1 (ix3 (0 : Fin 1) p d) : EReal)) = fun d => A.x1 (ix3 b p d) := funext fun d => hx p d
  have e2 : (fun (d : Fin 1024) (h : Fin 768) => (x7 (ix2 d h) : EReal)) = fun d h => A.W1 (ix2 d h) := funext fun d => funext fun h => hW d h
  have e3 : (fun h : Fin 768 => (x8 (ix1 h) : EReal)) = fun h => A.b1 (ix1 h) := funext hb
  have e4 : (fun h : Fin 768 => (x13 (ix2 (rowOf (A.ids (ix2 b (⟨160 + p.val, Nat.lt_of_lt_of_le (Nat.add_lt_add_left p.isLt 160) (by decide)⟩ : Fin 344)))) h) : EReal))
      = orow A b (⟨160 + p.val, Nat.lt_of_lt_of_le (Nat.add_lt_add_left p.isLt 160) (by decide)⟩ : Fin 344) := funext fun h => hT _ h
  have e5 : (fun h : Fin 768 => (x14 (ix1 h) : EReal)) = fun h => A.g (ix1 h) := funext hg
  have e6 : (fun h : Fin 768 => (x15 (ix1 h) : EReal)) = fun h => A.s (ix1 h) := funext hs
  rw [e1, e2, e3, e4, e5, e6]

/-- A stored row of the frm run is the result at its token: the loaded blocks are the argument arrays at sample `b`, the
    index word of the block is the clamped word of the token, and the clamped word of a non-negative word selects its row. -/
theorem row_frm (A : Args) (b : Fin 64) (x4 : Vec Ideal S1x344x1 .i32) (x13 : Vec Ideal S512x768 .bf16)
    (x2 : Vec Ideal S1x16x2048 .f32) (x9 : Vec Ideal S2048x768 .bf16) (x10 x14 x15 : Vec Ideal S768 .f32)
    (hx : ∀ (p : Fin 16) (d : Fin 2048), (x2 (ix3 (0 : Fin 1) p d) : EReal) = A.x2 (ix3 b p d))
    (hW : ∀ (d : Fin 2048) (h : Fin 768), (x9 (ix2 d h) : EReal) = A.W2 (ix2 d h))
    (hb : ∀ h : Fin 768, (x10 (ix1 h) : EReal) = A.b2 (ix1 h))
    (hT : ∀ (r : Fin 512) (h : Fin 768), (x13 (ix2 r h) : EReal) = A.T (ix2 r h))
    (hg : ∀ h : Fin 768, (x14 (ix1 h) : EReal) = A.g (ix1 h))
    (hs : ∀ h : Fin 768, (x15 (ix1 h) : EReal) = A.s (ix1 h))
    (hid : ∀ t' : Fin 344, (x4 (ix3 (0 : Fin 1) t' (0 : Fin 1)) : BitVec 32) = IntOp.minsi 511#32 (IntOp.maxsi 0#32 (A.ids (ix2 b t'))))
    (hnn : ∀ t' : Fin 344, 0 ≤ (A.ids (ix2 b t')).toInt)
    (p : Fin 16) (q : Fin 768) (t' : Fin 344) (ht : t'.val = 320 + p.val) :
    k0_pay13 (F := Ideal) (k0_pay12 (k0_pay2 x4 x13) x14 x15 x2 x9 x10) (ix3 (0 : Fin 1) p q) = G A (ix3 b t' q) := by
  obtain rfl : t' = (⟨320 + p.val, Nat.lt_of_lt_of_le (Nat.add_lt_add_left p.isLt 320) (by decide)⟩ : Fin 344) := Fin.ext ht
  have hr : ∀ k : Fin 512, BitVec.ofNat 32 k.val = (x4 (ix3 (0 : Fin 1) (⟨320 + p.val, Nat.lt_of_lt_of_le (Nat.add_lt_add_left p.isLt 320) (by decide)⟩ : Fin 344) (0 : Fin 1)) : BitVec 32)
      ↔ k = rowOf (A.ids (ix2 b (⟨320 + p.val, Nat.lt_of_lt_of_le (Nat.add_lt_add_left p.isLt 320) (by decide)⟩ : Fin 344))) := fun k => by
    rw [hid, clip_eq (hnn _)]; exact lane_eq_iff (hnn _) k
  refine (Rows.piece_frm x4 x13 x2 x9 x10 x14 x15 p q _ hr).trans ?_
  rw [G_ix3]
  unfold Gat
  rw [tokRow_frm A b p _ rfl]
  have e1 : (fun d : Fin 2048 => (x2 (ix3 (0 : Fin 1) p d) : EReal)) = fun d => A.x2 (ix3 b p d) := funext fun d => hx p d
  have e2 : (fun (d : Fin 2048) (h : Fin 768) => (x9 (ix2 d h) : EReal)) = fun d h => A.W2 (ix2 d h) := funext fun d => funext fun h => hW d h
  have e3 : (fun h : Fin 768 => (x10 (ix1 h) : EReal)) = fun h => A.b2 (ix1 h) := funext hb
  have e4 : (fun h : Fin 768 => (x13 (ix2 (rowOf (A.ids (ix2 b (⟨320 + p.val, Nat.lt_of_lt_of_le (Nat.add_lt_add_left p.isLt 320) (by decide)⟩ : Fin 344)))) h) : EReal))
      = orow A b (⟨320 + p.val, Nat.lt_of_lt_of_le (Nat.add_lt_add_left p.isLt 320) (by decide)⟩ : Fin 344) := funext fun h => hT _ h
  have e5 : (fun h : Fin 768 => (x14 (ix1 h) : EReal)) = fun h => A.g (ix1 h) := funext hg
  have e6 : (fun h : Fin 768 => (x15 (ix1 h) : EReal)) = fun h => A.s (ix1 h) := funext hs
  rw [e1, e2, e3, e4, e5, e6]

/-- A stored row of the act run is the result at its token: the loaded blocks are the argument arrays at sample `b`, the
    index word of the block is the clamped word of the token, and the clamped word of a non-negative word selects its row. -/
theorem row_act (A : Args) (b : Fin 64) (x4 : Vec Ideal S1x344x1 .i32) (x13 : Vec Ideal S512x768 .bf16)
    (x3 : Vec Ideal S1x8x2048 .f32) (x11 : Vec Ideal S2048x768 .bf16) (x12 x14 x15 : Vec Ideal S768 .f32)
    (hx : ∀ (p : Fin 8) (d : Fin 2048), (x3 (ix3 (0 : Fin 1) p d) : EReal) = A.x3 (ix3 b p d))
    (hW : ∀ (d : Fin 2048) (h : Fin 768), (x11 (ix2 d h) : EReal) = A.W3 (ix2 d h))
    (hb : ∀ h : Fin 768, (x12 (ix1 h) : EReal) = A.b3 (ix1 h))
    (hT : ∀ (r : Fin 512) (h : Fin 768), (x13 (ix2 r h) : EReal) = A.T (ix2 r h))
    (hg : ∀ h : Fin 768, (x14 (ix1 h) : EReal) = A.g (ix1 h))
    (hs : ∀ h : Fin 768, (x15 (ix1 h) : EReal) = A.s (ix1 h))
    (hid : ∀ t' : Fin 344, (x4 (ix3 (0 : Fin 1) t' (0 : Fin 1)) : BitVec 32) = IntOp.minsi 511#32 (IntOp.maxsi 0#32 (A.ids (ix2 b t'))))
    (hnn : ∀ t' : Fin 344, 0 ≤ (A.ids (ix2 b t')).toInt)
    (p : Fin 8) (q : Fin 768) (t' : Fin 344) (ht : t'.val = 336 + p.val) :
    k0_pay1 (F := Ideal) (k0_pay14 (k0_pay2 x4 x13) x14 x15 x3 x11 x12) (ix3 (0 : Fin 1) p q) = G A (ix3 b t' q) := by
  obtain rfl : t' = (⟨336 + p.val, Nat.lt_of_lt_of_le (Nat.add_lt_add_left p.isLt 336) (by decide)⟩ : Fin 344) := Fin.ext ht
  have hr : ∀ k : Fin 512, BitVec.ofNat 32 k.val = (x4 (ix3 (0 : Fin 1) (⟨336 + p.val, Nat.lt_of_lt_of_le (Nat.add_lt_add_left p.isLt 336) (by decide)⟩ : Fin 344) (0 : Fin 1)) : BitVec 32)
      ↔ k = rowOf (A.ids (ix2 b (⟨336 + p.val, Nat.lt_of_lt_of_le (Nat.add_lt_add_left p.isLt 336) (by decide)⟩ : Fin 344))) := fun k => by
    rw [hid, clip_eq (hnn _)]; exact lane_eq_iff (hnn _) k
  refine (Rows.piece_act x4 x13 x3 x11 x12 x14 x15 p q _ hr).trans ?_
  rw [G_ix3]
  unfold Gat
  rw [tokRow_act A b p _ rfl]
  have e1 : (fun d : Fin 2048 => (x3 (ix3 (0 : Fin 1) p d) : EReal)) = fun d => A.x3 (ix3 b p d) := funext fun d => hx p d
  have e2 : (fun (d : Fin 2048) (h : Fin 768) => (x11 (ix2 d h) : EReal)) = fun d h => A.W3 (ix2 d h) := funext fun d => funext fun h => hW d h
  have e3 : (fun h : Fin 768 => (x12 (ix1 h) : EReal)) = fun h => A.b3 (ix1 h) := funext hb
  have e4 : (fun h : Fin 768 => (x13 (ix2 (rowOf (A.ids (ix2 b (⟨336 + p.val, Nat.lt_of_lt_of_le (Nat.add_lt_add_left p.isLt 336) (by decide)⟩ : Fin 344)))) h) : EReal))
      = orow A b (⟨336 + p.val, Nat.lt_of_lt_of_le (Nat.add_lt_add_left p.isLt 336) (by decide)⟩ : Fin 344) := funext fun h => hT _ h
  have e5 : (fun h : Fin 768 => (x14 (ix1 h) : EReal)) = fun h => A.g (ix1 h) := funext hg
  have e6 : (fun h : Fin 768 => (x15 (ix1 h) : EReal)) = fun h => A.s (ix1 h) := funext hs
  rw [e1, e2, e3, e4, e5, e6]

end Cert.KernelIdeal.OE

end
-- ==== Proof.KernelTail.lean ====
/-
  The kernel program's run, read at its results once the result array after the last write-back is known: the
  output array is the pipeline's window 16; the all-ones mask is written by the two host operations after the call; each
  argument array is either staged by an input window (and a window only reads its array) or touched by no operation.
-/
import proofs.«400087_j58643483459633_3_alg».proof.Proof.Gen.KernelIdeal.Frame
import Idealize.ShloMosaic.Lib.Pipeline.Value
import Idealize.ShloMosaic.Lib.StableHlo.Run
import Idealize.ShloMosaic.Lib.Tactic

noncomputable section

namespace Cert.KernelIdeal.OE

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The two host operations after the call leave the mask at all ones, whatever the arrays hold. -/
theorem tail_mask (c : Dev nD) :
    Pipeline.afterTail₀ cfgs (dats m) 0 (V0 m) [hostOps1] c main_v8
      = broadcastInDim S64x344 ![] bcast_S_S64x344 (constantI S_ 1 1#1) := by
  unfold Pipeline.afterTail₀
  show StableHlo.after hostOps1 _ (Proc.devRef .tc main_v8) = _
  after_results

/-- THE RUN FROM THE FINAL ARRAY: if window 16's array after the last write-back is `Gc c` on every device, every
    weakly fair execution ends with the result array there, the mask at all ones, the arguments unchanged. -/
theorem run_of_final (Gc : (c : Dev nD) → Buf (Elt F) ((c.tc : Thread nD τ).loc main_v7))
    (hfinal : ∀ c : Dev nD, (dats m 0 c).arrAt 16 cfg0.N = Gc c) :
    θ_run defs (onTc (τ := τ) (main (F := F))) ⟨m, fun _ => 0, ρ⟩ (fun r => ∀ c : Dev nD,
      r.2.mem ((c.tc : Thread nD τ).loc main_v7) = Gc c
      ∧ r.2.mem ((c.tc : Thread nD τ).loc main_v8) = broadcastInDim S64x344 ![] bcast_S_S64x344 (constantI S_ 1 1#1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨((h c).1 16).trans (hfinal c),
      ((h c).2 main_v8 (Pipeline.mem_restRefs_of main_v8 (by decide) (by decide))).trans (tail_mask m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      ((h c).1 6).trans (((dats m 0 c).arrAt_in 6 rfl _).trans ((A_eq m c 6).trans (V_main_arg6 m c))),
      (((h c).2 main_arg7 (Pipeline.mem_restRefs_of main_arg7 (by decide) (by decide))).trans (W_main_arg7 m (dats m) c)),
      ((h c).1 8).trans (((dats m 0 c).arrAt_in 8 rfl _).trans ((A_eq m c 8).trans (V_main_arg8 m c))),
      (((h c).2 main_arg9 (Pipeline.mem_restRefs_of main_arg9 (by decide) (by decide))).trans (W_main_arg9 m (dats m) c)),
      ((h c).1 10).trans (((dats m 0 c).arrAt_in 10 rfl _).trans ((A_eq m c 10).trans (V_main_arg10 m c))),
      (((h c).2 main_arg11 (Pipeline.mem_restRefs_of main_arg11 (by decide) (by decide))).trans (W_main_arg11 m (dats m) c)),
      ((h c).1 12).trans (((dats m 0 c).arrAt_in 12 rfl _).trans ((A_eq m c 12).trans (V_main_arg12 m c))),
      (((h c).2 main_arg13 (Pipeline.mem_restRefs_of main_arg13 (by decide) (by decide))).trans (W_main_arg13 m (dats m) c)),
      ((h c).1 14).trans (((dats m 0 c).arrAt_in 14 rfl _).trans ((A_eq m c 14).trans (V_main_arg14 m c))),
      ((h c).1 15).trans (((dats m 0 c).arrAt_in 15 rfl _).trans ((A_eq m c 15).trans (V_main_arg15 m c)))⟩) (run_main m ρ)

end Cert.KernelIdeal.OE

end
-- ==== Proof.KernelRun.lean ====
/-
  The idealized kernel's run, read: its result array ends at `Cert.OrderEmbed.G` of its arguments. The grid has one point per
  sample; what point `t` writes back is sample `t` of the result (each stored run of rows is the result at its tokens, the loaded
  blocks being the argument arrays at sample `t`), and the 64 blocks tile the array.
-/
import proofs.«400087_j58643483459633_3_alg».proof.Proof.Gen.KernelIdeal.Frame
import proofs.«400087_j58643483459633_3_alg».proof.Proof.KernelRows
import proofs.«400087_j58643483459633_3_alg».proof.Proof.Spec
import proofs.«400087_j58643483459633_3_alg».proof.Proof.KernelRunA
import proofs.«400087_j58643483459633_3_alg».proof.Proof.KernelRunC
import proofs.«400087_j58643483459633_3_alg».proof.Proof.KernelRunD
import proofs.«400087_j58643483459633_3_alg».proof.Proof.KernelTail
import Idealize.ShloMosaic.Lib.Pipeline.Value
import Idealize.ShloMosaic.Lib.StableHlo.Run
import Idealize.ShloMosaic.Lib.Tactic

noncomputable section

namespace Cert.KernelIdeal.OE

open Cert.KernelIdeal Cert.KernelIdeal.Gen Idealize.ShloMosaic Idealize.ShloMosaic.TcCoe Idealize.SL.Sem
open Idealize.ShloMosaic.Pipeline (Dat)
open Idealize.ShloMosaic.ValueIdx Cert.OrderEmbed

/-- The kernel program's argument arrays on device `c`. -/
def argsOf (m : (ℓ : Loc nD τ sig) → Buf (Elt Ideal) ℓ) (c : Dev nD) : Args where
  x0 := m ((c.tc : Thread nD τ).loc main_arg0)
  x1 := m ((c.tc : Thread nD τ).loc main_arg1)
  x2 := m ((c.tc : Thread nD τ).loc main_arg2)
  x3 := m ((c.tc : Thread nD τ).loc main_arg3)
  ids := m ((c.tc : Thread nD τ).loc main_arg4)
  W0 := m ((c.tc : Thread nD τ).loc main_arg5)
  b0 := m ((c.tc : Thread nD τ).loc main_arg6)
  W1 := m ((c.tc : Thread nD τ).loc main_arg7)
  b1 := m ((c.tc : Thread nD τ).loc main_arg8)
  W2 := m ((c.tc : Thread nD τ).loc main_arg9)
  b2 := m ((c.tc : Thread nD τ).loc main_arg10)
  W3 := m ((c.tc : Thread nD τ).loc main_arg11)
  b3 := m ((c.tc : Thread nD τ).loc main_arg12)
  T := m ((c.tc : Thread nD τ).loc main_arg13)
  g := m ((c.tc : Thread nD τ).loc main_arg14)
  s := m ((c.tc : Thread nD τ).loc main_arg15)

section Blocks

variable (m : (ℓ : Loc nD τ sig) → Buf (Elt Ideal) ℓ)

/-- Sample `b` of the result, as a function of the block index. -/
def Gblk (A : Args) (b : Fin 64) : S1x344x768.Idx → EReal :=
  fun y => G A (ix3 b (⟨(y 1).val, (y 1).isLt⟩ : Fin 344) (⟨(y 2).val, (y 2).isLt⟩ : Fin 768))

theorem Gblk_ix3 (A : Args) (b : Fin 64) (t' : Fin 344) (q : Fin 768) : Gblk A b (ix3 (0 : Fin 1) t' q) = G A (ix3 b t' q) := rfl

/-- WHAT POINT `t` WRITES BACK is block `t` of the result: each stored run of rows is the result at its tokens (the loaded
    blocks are the argument arrays at sample `t`; the index words are non-negative). -/
theorem flushed_eq (c : Dev nD) (hc : ∀ i : S64x344.Idx, 0 ≤ ((m ((c.tc : Thread nD τ).loc main_arg4) : IVec S64x344 32) i).toInt) (t : Fin cfg0.N) :
    (dats m 0 c).flushed 16 t = ((cfg0.win 16).blk t).view.read (Elt Ideal) (G (argsOf m c)) := by
  obtain ⟨e0, e1, e2⟩ := idx_facts_16 t
  show (cfg0.win 16).cut (grid0.coords t) ((dats m 0 c).after 16 t) = _
  rw [after0_16]
  unfold outsAt0
  rw [out_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (Gblk (argsOf m c) (bOf t))
    (fun p q => (row_obj (argsOf m c) (bOf t) (iblk m c 4 t) (iblk m c 13 t) (iblk m c 0 t) (iblk m c 5 t) (iblk m c 6 t) (iblk m c 14 t) (iblk m c 15 t) (blk0 m c t) (blk5 m c t) (blk6 m c t) (blk13 m c t) (blk14 m c t) (blk15 m c t) (blk4 m c t) (fun t' => hc (ix2 (bOf t) t')) p q _ (Nat.zero_add _)).trans (Gblk_ix3 (argsOf m c) (bOf t) _ q).symm)
    (fun p q => (row_rel (argsOf m c) (bOf t) (iblk m c 4 t) (iblk m c 13 t) (iblk m c 1 t) (iblk m c 7 t) (iblk m c 8 t) (iblk m c 14 t) (iblk m c 15 t) (blk1 m c t) (blk7 m c t) (blk8 m c t) (blk13 m c t) (blk14 m c t) (blk15 m c t) (blk4 m c t) (fun t' => hc (ix2 (bOf t) t')) p q _ rfl).trans (Gblk_ix3 (argsOf m c) (bOf t) _ q).symm)
    (fun p q => (row_frm (argsOf m c) (bOf t) (iblk m c 4 t) (iblk m c 13 t) (iblk m c 2 t) (iblk m c 9 t) (iblk m c 10 t) (iblk m c 14 t) (iblk m c 15 t) (blk2 m c t) (blk9 m c t) (blk10 m c t) (blk13 m c t) (blk14 m c t) (blk15 m c t) (blk4 m c t) (fun t' => hc (ix2 (bOf t) t')) p q _ rfl).trans (Gblk_ix3 (argsOf m c) (bOf t) _ q).symm)
    (fun p q => (row_act (argsOf m c) (bOf t) (iblk m c 4 t) (iblk m c 13 t) (iblk m c 3 t) (iblk m c 11 t) (iblk m c 12 t) (iblk m c 14 t) (iblk m c 15 t) (blk3 m c t) (blk11 m c t) (blk12 m c t) (blk13 m c t) (blk14 m c t) (blk15 m c t) (blk4 m c t) (fun t' => hc (ix2 (bOf t) t')) p q _ rfl).trans (Gblk_ix3 (argsOf m c) (bOf t) _ q).symm)]
  funext y
  rw [View.read_apply]
  show G (argsOf m c) _ = G (argsOf m c) _
  congr 1
  funext a
  apply Fin.ext
  match a with
  | ⟨0, _⟩ => show t.val = win0_16.index t (0 : Fin 3) * 1 + 1 * (y 0).val; have h0 : (y 0).val < 1 := (y 0).isLt; rw [e0]; omega
  | ⟨1, _⟩ => show (y 1).val = win0_16.index t (1 : Fin 3) * 344 + 1 * (y 1).val; rw [e1]; omega
  | ⟨2, _⟩ => show (y 2).val = win0_16.index t (2 : Fin 3) * 768 + 1 * (y 2).val; rw [e2]; omega

/-- Sample `b` of the array is point `b`'s block. -/
theorem covered (i : S64x344x768.Idx) :
    ∃ t : Fin cfg0.N, (cfg0.win 16).flush t = true ∧ i ∈ ((cfg0.win 16).blk t).view.set := by
  have hN : cfg0.N = 64 := N_0
  have h0 : (i 0).val < 64 := (i 0).isLt
  have h1 : (i 1).val < 344 := (i 1).isLt
  have h2 : (i 2).val < 768 := (i 2).isLt
  obtain ⟨t, ht⟩ : ∃ t : Fin cfg0.N, t.val = (i 0).val := ⟨⟨(i 0).val, by omega⟩, rfl⟩
  obtain ⟨e0, e1, e2⟩ := idx_facts_16 t
  refine ⟨t, flush0_16 t, ?_⟩
  show i ∈ ((View.whole main_v7).slice (win0_16.rect t)).set
  rw [View.set_slice_whole, Rect.mem_set_unit]
  intro a
  match a with
  | ⟨0, _⟩ =>
    show win0_16.index t (0 : Fin 3) * 1 ≤ (i 0).val ∧ (i 0).val < win0_16.index t (0 : Fin 3) * 1 + 1
    rw [e0]; omega
  | ⟨1, _⟩ =>
    show win0_16.index t (1 : Fin 3) * 344 ≤ (i 1).val ∧ (i 1).val < win0_16.index t (1 : Fin 3) * 344 + 344
    rw [e1]; omega
  | ⟨2, _⟩ =>
    show win0_16.index t (2 : Fin 3) * 768 ≤ (i 2).val ∧ (i 2).val < win0_16.index t (2 : Fin 3) * 768 + 768
    rw [e2]; omega

/-- THE RESULT ARRAY after the run, where every index word is non-negative. -/
theorem final (c : Dev nD) (hc : ∀ i : S64x344.Idx, 0 ≤ ((m ((c.tc : Thread nD τ).loc main_arg4) : IVec S64x344 32) i).toInt) : (dats m 0 c).arrAt 16 cfg0.N = G (argsOf m c) :=
  (dats m 0 c).arrAt_eq_of_cover 16 (G (argsOf m c)) (fun t _ => flushed_eq m c hc t) covered

end Blocks

/-- Where every index word is non-negative: every weakly fair execution terminates with the result array at `G` of the
    arguments, the mask at all ones, the arguments unchanged. -/
theorem run (m : (ℓ : Loc nD τ sig) → Buf (Elt Ideal) ℓ) (ρ : Dev nD → PrngReg)
    (hids : ∀ (c : Dev nD) (i : S64x344.Idx), 0 ≤ ((m ((c.tc : Thread nD τ).loc main_arg4) : IVec S64x344 32) i).toInt) :
    θ_run defs (onTc (τ := τ) (main (F := Ideal))) ⟨m, fun _ => 0, ρ⟩ (fun r => ∀ c : Dev nD,
      r.2.mem ((c.tc : Thread nD τ).loc main_v7) = G (argsOf m c)
      ∧ r.2.mem ((c.tc : Thread nD τ).loc main_v8) = broadcastInDim S64x344 ![] bcast_S_S64x344 (constantI S_ 1 1#1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  run_of_final m ρ (fun c => G (argsOf m c)) (fun c => final m c (hids c))

end Cert.KernelIdeal.OE

end
-- ==== Proof.RefValue.lean ====
/-
  The reference program's result, read index by index, is the function `Cert.OrderEmbed.G` of its arguments.

  The reference is a chain of array operations. Each is read at one index from its operands at an index:
  a contraction as a finite sum of products, a broadcast as its operand at the surviving coordinates, the
  join of the four token runs as the run that holds the token, the gather of order-table rows as the table
  at the row the (non-negative, hence unwrapped) index word selects once clamped, a sum over the hidden axis
  as a finite sum from zero. Reading the last operation at an index and following the chain back to the
  arguments gives the normalised token row `ln (tokRow …)` — the same expression, operation for operation.
-/
import proofs.«400087_j58643483459633_3_alg».proof.Proof.Gen.ReferenceIdeal.Run
import proofs.«400087_j58643483459633_3_alg».proof.Proof.Gen.ReferenceIdeal.Read
import proofs.«400087_j58643483459633_3_alg».proof.Proof.Spec

noncomputable section

namespace Cert.ReferenceIdeal.OE

open Cert.ReferenceIdeal Cert.ReferenceIdeal.Gen Idealize.ShloMosaic Idealize.ShloMosaic.TcCoe Idealize.SL.Sem
open Idealize.ShloMosaic.ValueIdx Cert.OrderEmbed
open Cert.ReferenceIdeal.Read
open scoped BigOperators

/-- The gather of table rows, read at an index: the row is the index word read signed and clamped into
    the table, the column is the result's last coordinate. -/
theorem gather_at (T : S512x768.Idx → EReal) (idx : IVec S64x344x1 32) (b : Fin 64) (t : Fin 344) (q : Fin 768) :
    Host.gather gather_S512x768_S64x344x1_S64x344x768_2_0_n_n_0_2_1768 T idx (ix3 b t q)
      = T (ix2 (rowOf (idx (ix3 b t (0 : Fin 1)))) q) := by
  unfold Host.gather
  refine congrArg T (funext fun a => Fin.ext ?_)
  match a with
  | ⟨0, _⟩ =>
    -- the collapsed axis: the clamped start index, no batching and no offset coordinate
    show gather_S512x768_S64x344x1_S64x344x768_2_0_n_n_0_2_1768.start (ix3 b t q) idx 0
        + gather_S512x768_S64x344x1_S64x344x768_2_0_n_n_0_2_1768.batchCoord (ix3 b t q) 0
        + gather_S512x768_S64x344x1_S64x344x768_2_0_n_n_0_2_1768.offCoord (ix3 b t q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin S512x768.rank) ∈ gather_S512x768_S64x344x1_S64x344x768_2_0_n_n_0_2_1768.startIndexMap from List.mem_singleton.mpr rfl)]
    have hsi : gather_S512x768_S64x344x1_S64x344x768_2_0_n_n_0_2_1768.siIdx (ix3 b t q)
        ⟨List.idxOf (0 : Fin S512x768.rank) gather_S512x768_S64x344x1_S64x344x768_2_0_n_n_0_2_1768.startIndexMap,
          List.idxOf_lt_length_iff.2 (List.mem_singleton.mpr rfl)⟩ = ix3 b t (0 : Fin 1) := by
      funext c; refine Fin.ext ?_
      match c with
      | ⟨0, _⟩ => rfl
      | ⟨1, _⟩ => rfl
      | ⟨2, _⟩ => rfl
    rw [hsi]
    rfl
  | ⟨1, _⟩ =>
    -- the offset axis: start and batching coordinate are zero, the offset is the result's last coordinate
    show gather_S512x768_S64x344x1_S64x344x768_2_0_n_n_0_2_1768.start (ix3 b t q) idx 1
        + gather_S512x768_S64x344x1_S64x344x768_2_0_n_n_0_2_1768.batchCoord (ix3 b t q) 1
        + gather_S512x768_S64x344x1_S64x344x768_2_0_n_n_0_2_1768.offCoord (ix3 b t q) 1 = q.val
    have hst : gather_S512x768_S64x344x1_S64x344x768_2_0_n_n_0_2_1768.start (ix3 b t q) idx 1 = 0 := by
      unfold GatherDims.start
      rw [dif_neg (show ¬ (1 : Fin S512x768.rank) ∈ gather_S512x768_S64x344x1_S64x344x768_2_0_n_n_0_2_1768.startIndexMap from by decide)]
    have hoff : gather_S512x768_S64x344x1_S64x344x768_2_0_n_n_0_2_1768.offCoord (ix3 b t q) 1 = q.val := by
      unfold GatherDims.offCoord
      rw [dif_pos (show (1 : Fin S512x768.rank) ∈ gather_S512x768_S64x344x1_S64x344x768_2_0_n_n_0_2_1768.sKept from by decide)]
      rfl
    rw [hst, hoff, GatherDims.batchCoord_eq_zero _ _ _ List.not_mem_nil]
    omega

/-- The gathered order-table rows at an index, for non-negative index words: the wrap of negative words
    leaves the word alone, and the broadcast to a trailing unit axis reads it back. -/
theorem v23_at (x4 : (⟨S64x344, .i32⟩ : BufTy).Contents (Elt Ideal)) (x13 : (⟨S512x768, .f32⟩ : BufTy).Contents (Elt Ideal))
    (hids : ∀ i : S64x344.Idx, 0 ≤ ((x4 : IVec S64x344 32) i).toInt) (b : Fin 64) (t : Fin 344) (q : Fin 768) :
    val_main_v23 (F := Ideal) x4 x13 (ix3 b t q) = x13 (ix2 (rowOf (x4 (ix2 b t))) q) := by
  unfold val_main_v23
  refine (gather_at x13 (val_main_v22 (F := Ideal) x4) b t q).trans ?_
  have hw : val_main_v22 (F := Ideal) x4 (ix3 b t (0 : Fin 1)) = x4 (ix2 b t) := by
    rw [val_main_v22_apply, val_main_v21_apply, val_main_v18_apply, val_main_v17_apply, val_main_c_apply]
    have hi : idx_main_v22 (ix3 b t (0 : Fin 1)) = ix2 b t :=
      funext fun a => by match a with | ⟨0, _⟩ => rfl | ⟨1, _⟩ => rfl
    rw [hi]
    exact wrap_eq (hids (ix2 b t))
  rw [hw]

/-- The object tokens' projection with its bias, read at an index. -/
theorem v3_at (x0 : (⟨S64x160x2048, .f32⟩ : BufTy).Contents (Elt Ideal)) (x5 : (⟨S2048x768, .f32⟩ : BufTy).Contents (Elt Ideal))
    (x6 : (⟨S768, .f32⟩ : BufTy).Contents (Elt Ideal)) (b : Fin 64) (p : Fin 160) (h : Fin 768) :
    val_main_v3 (F := Ideal) x0 x5 x6 (ix3 b p h) = (∑ d : Fin 2048, x0 (ix3 b p d) * x5 (ix2 d h)) + x6 (ix1 h) := by
  rw [val_main_v3_apply, Ideal.addf_def, val_main_v0_apply, val_main_v2_apply, val_main_v1_apply]
  have hb : idx_main_v1 (idx_main_v2 (ix3 b p h)) = ix1 h :=
    funext fun a => by match a with | ⟨0, _⟩ => rfl
  rw [hb]
  refine congrArg (· + x6 (ix1 h)) (Finset.sum_congr rfl fun d _ => ?_)
  have hl : lidx_main_v0 (ix3 b p h) d = ix3 b p d :=
    funext fun a => by match a with | ⟨0, _⟩ => rfl | ⟨1, _⟩ => rfl | ⟨2, _⟩ => rfl
  have hr : ridx_main_v0 (ix3 b p h) d = ix2 d h :=
    funext fun a => by match a with | ⟨0, _⟩ => rfl | ⟨1, _⟩ => rfl
  rw [hl, hr]

/-- The relation tokens' projection with its bias, read at an index. -/
theorem v7_at (x1 : (⟨S64x160x1024, .f32⟩ : BufTy).Contents (Elt Ideal)) (x7 : (⟨S1024x768, .f32⟩ : BufTy).Contents (Elt Ideal))
    (x8 : (⟨S768, .f32⟩ : BufTy).Contents (Elt Ideal)) (b : Fin 64) (p : Fin 160) (h : Fin 768) :
    val_main_v7 (F := Ideal) x1 x7 x8 (ix3 b p h) = (∑ d : Fin 1024, x1 (ix3 b p d) * x7 (ix2 d h)) + x8 (ix1 h) := by
  rw [val_main_v7_apply, Ideal.addf_def, val_main_v4_apply, val_main_v6_apply, val_main_v5_apply]
  have hb : idx_main_v5 (idx_main_v6 (ix3 b p h)) = ix1 h :=
    funext fun a => by match a with | ⟨0, _⟩ => rfl
  rw [hb]
  refine congrArg (· + x8 (ix1 h)) (Finset.sum_congr rfl fun d _ => ?_)
  have hl : lidx_main_v4 (ix3 b p h) d = ix3 b p d :=
    funext fun a => by match a with | ⟨0, _⟩ => rfl | ⟨1, _⟩ => rfl | ⟨2, _⟩ => rfl
  have hr : ridx_main_v4 (ix3 b p h) d = ix2 d h :=
    funext fun a => by match a with | ⟨0, _⟩ => rfl | ⟨1, _⟩ => rfl
  rw [hl, hr]

/-- The frame tokens' projection with its bias, read at an index. -/
theorem v11_at (x2 : (⟨S64x16x2048, .f32⟩ : BufTy).Contents (Elt Ideal)) (x9 : (⟨S2048x768, .f32⟩ : BufTy).Contents (Elt Ideal))
    (x10 : (⟨S768, .f32⟩ : BufTy).Contents (Elt Ideal)) (b : Fin 64) (p : Fin 16) (h : Fin 768) :
    val_main_v11 (F := Ideal) x2 x9 x10 (ix3 b p h) = (∑ d : Fin 2048, x2 (ix3 b p d) * x9 (ix2 d h)) + x10 (ix1 h) := by
  rw [val_main_v11_apply, Ideal.addf_def, val_main_v8_apply, val_main_v10_apply, val_main_v9_apply]
  have hb : idx_main_v9 (idx_main_v10 (ix3 b p h)) = ix1 h :=
    funext fun a => by match a with | ⟨0, _⟩ => rfl
  rw [hb]
  refine congrArg (· + x10 (ix1 h)) (Finset.sum_congr rfl fun d _ => ?_)
  have hl : lidx_main_v8 (ix3 b p h) d = ix3 b p d :=
    funext fun a => by match a with | ⟨0, _⟩ => rfl | ⟨1, _⟩ => rfl | ⟨2, _⟩ => rfl
  have hr : ridx_main_v8 (ix3 b p h) d = ix2 d h :=
    funext fun a => by match a with | ⟨0, _⟩ => rfl | ⟨1, _⟩ => rfl
  rw [hl, hr]

/-- The action tokens' projection with its bias, read at an index. -/
theorem v15_at (x3 : (⟨S64x8x2048, .f32⟩ : BufTy).Contents (Elt Ideal)) (x11 : (⟨S2048x768, .f32⟩ : BufTy).Contents (Elt Ideal))
    (x12 : (⟨S768, .f32⟩ : BufTy).Contents (Elt Ideal)) (b : Fin 64) (p : Fin 8) (h : Fin 768) :
    val_main_v15 (F := Ideal) x3 x11 x12 (ix3 b p h) = (∑ d : Fin 2048, x3 (ix3 b p d) * x11 (ix2 d h)) + x12 (ix1 h) := by
  rw [val_main_v15_apply, Ideal.addf_def, val_main_v12_apply, val_main_v14_apply, val_main_v13_apply]
  have hb : idx_main_v13 (idx_main_v14 (ix3 b p h)) = ix1 h :=
    funext fun a => by match a with | ⟨0, _⟩ => rfl
  rw [hb]
  refine congrArg (· + x12 (ix1 h)) (Finset.sum_congr rfl fun d _ => ?_)
  have hl : lidx_main_v12 (ix3 b p h) d = ix3 b p d :=
    funext fun a => by match a with | ⟨0, _⟩ => rfl | ⟨1, _⟩ => rfl | ⟨2, _⟩ => rfl
  have hr : ridx_main_v12 (ix3 b p h) d = ix2 d h :=
    funext fun a => by match a with | ⟨0, _⟩ => rfl | ⟨1, _⟩ => rfl
  rw [hl, hr]

/-! ## The four token runs joined along the token axis, read at an index of each run -/

section Concat
variable (y0 y1 : (⟨S64x160x768, .f32⟩ : BufTy).Contents (Elt Ideal)) (y2 : (⟨S64x16x768, .f32⟩ : BufTy).Contents (Elt Ideal))
  (y3 : (⟨S64x8x768, .f32⟩ : BufTy).Contents (Elt Ideal))

/-- Tokens 0 … 159 are the first run. -/
theorem concat_obj (b : Fin 64) (p : Fin 160) (t : Fin 344) (h : Fin 768) (ht : t.val = p.val) :
    concatenate S64x344x768 1 [⟨S64x160x768, y0⟩, ⟨S64x160x768, y1⟩, ⟨S64x16x768, y2⟩, ⟨S64x8x768, y3⟩]
      concatenates_S64x160x768_S64x160x768_S64x16x768_S64x8x768_S64x344x768_d1 (ix3 b t h) = y0 (ix3 b p h) := by
  refine concatenate_apply_piece 1 _ _ (ix3 b t h) 0 (by show (0 : Nat) < 4; omega) S64x160x768 y0 rfl rfl 0 rfl (ix3 b p h) ?_ ?_
  · intro a ha
    match a with
    | ⟨0, _⟩ => rfl
    | ⟨1, _⟩ => exact absurd rfl ha
    | ⟨2, _⟩ => rfl
  · show 0 + p.val = t.val
    omega

/-- Tokens 160 … 319 are the second run. -/
theorem concat_rel (b : Fin 64) (p : Fin 160) (t : Fin 344) (h : Fin 768) (ht : t.val = 160 + p.val) :
    concatenate S64x344x768 1 [⟨S64x160x768, y0⟩, ⟨S64x160x768, y1⟩, ⟨S64x16x768, y2⟩, ⟨S64x8x768, y3⟩]
      concatenates_S64x160x768_S64x160x768_S64x16x768_S64x8x768_S64x344x768_d1 (ix3 b t h) = y1 (ix3 b p h) := by
  refine concatenate_apply_piece 1 _ _ (ix3 b t h) 1 (by show (1 : Nat) < 4; omega) S64x160x768 y1 rfl rfl 160 rfl (ix3 b p h) ?_ ?_
  · intro a ha
    match a with
    | ⟨0, _⟩ => rfl
    | ⟨1, _⟩ => exact absurd rfl ha
    | ⟨2, _⟩ => rfl
  · show 160 + p.val = t.val
    omega

/-- Tokens 320 … 335 are the third run. -/
theorem concat_frm (b : Fin 64) (p : Fin 16) (t : Fin 344) (h : Fin 768) (ht : t.val = 320 + p.val) :
    concatenate S64x344x768 1 [⟨S64x160x768, y0⟩, ⟨S64x160x768, y1⟩, ⟨S64x16x768, y2⟩, ⟨S64x8x768, y3⟩]
      concatenates_S64x160x768_S64x160x768_S64x16x768_S64x8x768_S64x344x768_d1 (ix3 b t h) = y2 (ix3 b p h) := by
  refine concatenate_apply_piece 1 _ _ (ix3 b t h) 2 (by show (2 : Nat) < 4; omega) S64x16x768 y2 rfl rfl 320 rfl (ix3 b p h) ?_ ?_
  · intro a ha
    match a with
    | ⟨0, _⟩ => rfl
    | ⟨1, _⟩ => exact absurd rfl ha
    | ⟨2, _⟩ => rfl
  · show 320 + p.val = t.val
    omega

/-- Tokens 336 … 343 are the fourth run. -/
theorem concat_act (b : Fin 64) (p : Fin 8) (t : Fin 344) (h : Fin 768) (ht : t.val = 336 + p.val) :
    concatenate S64x344x768 1 [⟨S64x160x768, y0⟩, ⟨S64x160x768, y1⟩, ⟨S64x16x768, y2⟩, ⟨S64x8x768, y3⟩]
      concatenates_S64x160x768_S64x160x768_S64x16x768_S64x8x768_S64x344x768_d1 (ix3 b t h) = y3 (ix3 b p h) := by
  refine concatenate_apply_piece 1 _ _ (ix3 b t h) 3 (by show (3 : Nat) < 4; omega) S64x8x768 y3 rfl rfl 336 rfl (ix3 b p h) ?_ ?_
  · intro a ha
    match a with
    | ⟨0, _⟩ => rfl
    | ⟨1, _⟩ => exact absurd rfl ha
    | ⟨2, _⟩ => rfl
  · show 336 + p.val = t.val
    omega

end Concat

/-! ## The stages of the reference, read at an index, over arbitrary argument arrays -/

section Stages
variable (x0 : (⟨S64x160x2048, .f32⟩ : BufTy).Contents (Elt Ideal)) (x1 : (⟨S64x160x1024, .f32⟩ : BufTy).Contents (Elt Ideal))
  (x2 : (⟨S64x16x2048, .f32⟩ : BufTy).Contents (Elt Ideal)) (x3 : (⟨S64x8x2048, .f32⟩ : BufTy).Contents (Elt Ideal))
  (x4 : (⟨S64x344, .i32⟩ : BufTy).Contents (Elt Ideal)) (x5 : (⟨S2048x768, .f32⟩ : BufTy).Contents (Elt Ideal))
  (x6 : (⟨S768, .f32⟩ : BufTy).Contents (Elt Ideal)) (x7 : (⟨S1024x768, .f32⟩ : BufTy).Contents (Elt Ideal))
  (x8 : (⟨S768, .f32⟩ : BufTy).Contents (Elt Ideal)) (x9 : (⟨S2048x768, .f32⟩ : BufTy).Contents (Elt Ideal))
  (x10 : (⟨S768, .f32⟩ : BufTy).Contents (Elt Ideal)) (x11 : (⟨S2048x768, .f32⟩ : BufTy).Contents (Elt Ideal))
  (x12 : (⟨S768, .f32⟩ : BufTy).Contents (Elt Ideal)) (x13 : (⟨S512x768, .f32⟩ : BufTy).Contents (Elt Ideal))
  (x14 x15 : (⟨S768, .f32⟩ : BufTy).Contents (Elt Ideal))

/-- The sixteen argument arrays as one record. -/
def mkArgs : Args where
  x0 := x0
  x1 := x1
  x2 := x2
  x3 := x3
  ids := x4
  W0 := x5
  b0 := x6
  W1 := x7
  b1 := x8
  W2 := x9
  b2 := x10
  W3 := x11
  b3 := x12
  T := x13
  g := x14
  s := x15

/-- The joined token rows plus the gathered order-table rows: token `t` of sample `b` before normalisation.
    The token's run is found by comparing `t` with the runs' ends. -/
theorem v24_at (hids : ∀ i : S64x344.Idx, 0 ≤ ((x4 : IVec S64x344 32) i).toInt) (b : Fin 64) (t : Fin 344) (h : Fin 768) :
    val_main_v24 (F := Ideal) x0 x1 x2 x3 x4 x5 x6 x7 x8 x9 x10 x11 x12 x13 (ix3 b t h)
      = tokRow (mkArgs x0 x1 x2 x3 x4 x5 x6 x7 x8 x9 x10 x11 x12 x13 x14 x15) b t h := by
  rw [val_main_v24_apply, Ideal.addf_def, v23_at x4 x13 hids]
  unfold val_main_v16
  by_cases h0 : t.val < 160
  · rw [concat_obj _ _ _ _ b ⟨t.val, h0⟩ t h rfl, v3_at, tokRow_obj _ b ⟨t.val, h0⟩ t rfl]
    rfl
  by_cases h1 : t.val < 320
  · have ht : t.val = 160 + (⟨t.val - 160, by omega⟩ : Fin 160).val := by show t.val = 160 + (t.val - 160); omega
    rw [concat_rel _ _ _ _ b ⟨t.val - 160, by omega⟩ t h ht, v7_at, tokRow_rel _ b ⟨t.val - 160, by omega⟩ t ht]
    rfl
  by_cases h2 : t.val < 336
  · have ht : t.val = 320 + (⟨t.val - 320, by omega⟩ : Fin 16).val := by show t.val = 320 + (t.val - 320); omega
    rw [concat_frm _ _ _ _ b ⟨t.val - 320, by omega⟩ t h ht, v11_at, tokRow_frm _ b ⟨t.val - 320, by omega⟩ t ht]
    rfl
  · have hlt := t.isLt
    have ht : t.val = 336 + (⟨t.val - 336, by omega⟩ : Fin 8).val := by show t.val = 336 + (t.val - 336); omega
    rw [concat_act _ _ _ _ b ⟨t.val - 336, by omega⟩ t h ht, v15_at, tokRow_act _ b ⟨t.val - 336, by omega⟩ t ht]
    rfl

local notation "E24" => val_main_v24 (F := Ideal) x0 x1 x2 x3 x4 x5 x6 x7 x8 x9 x10 x11 x12 x13

/-- The row means: the sum over the hidden axis from zero, divided by 768. -/
theorem v28_at (b : Fin 64) (t : Fin 344) (z : Fin 1) :
    val_main_v28 (F := Ideal) x0 x1 x2 x3 x4 x5 x6 x7 x8 x9 x10 x11 x12 x13 (ix3 b t z) = mean (fun h => E24 (ix3 b t h)) := by
  rw [val_main_v28_apply, Ideal.hostDivf_def, val_main_v26_apply, val_main_v25_apply, val_main_cst_apply,
    val_main_v27_apply, val_main_cst_1_apply, Ideal.ofBits_def, Ideal.ofBits_def, Ideal.ofBits_zero_f32, zero_add]
  unfold mean
  refine congrArg (Ideal.div · c768) (Finset.sum_congr rfl fun k _ => ?_)
  exact congrArg _ (funext fun a => by match a with | ⟨0, _⟩ => rfl | ⟨1, _⟩ => rfl | ⟨2, _⟩ => rfl)

/-- The row variances: the sum of the squared deviations from zero, divided by 768. -/
theorem v35_at (b : Fin 64) (t : Fin 344) (z : Fin 1) :
    val_main_v35 (F := Ideal) x0 x1 x2 x3 x4 x5 x6 x7 x8 x9 x10 x11 x12 x13 (ix3 b t z) = var (fun h => E24 (ix3 b t h)) := by
  rw [val_main_v35_apply, Ideal.hostDivf_def, val_main_v33_apply, val_main_v32_apply, val_main_cst_2_apply,
    val_main_v34_apply, val_main_cst_3_apply, Ideal.ofBits_def, Ideal.ofBits_def, Ideal.ofBits_zero_f32, zero_add]
  unfold var
  refine congrArg (Ideal.div · c768) (Finset.sum_congr rfl fun k _ => ?_)
  have hk : idx_main_v32 (idx_main_v33 (ix3 b t z)) k = ix3 b t k :=
    funext fun a => by match a with | ⟨0, _⟩ => rfl | ⟨1, _⟩ => rfl | ⟨2, _⟩ => rfl
  have h29 : idx_main_v29 (ix3 b t k) = ix3 b t (0 : Fin 1) :=
    funext fun a => by match a with | ⟨0, _⟩ => rfl | ⟨1, _⟩ => rfl | ⟨2, _⟩ => rfl
  rw [hk, val_main_v31_apply, Ideal.mulf_def, val_main_v30_apply, Ideal.subf_def, val_main_v29_apply, h29, v28_at]

/-- The normalised rows: deviation from the mean times the reciprocal square root of the variance plus the
    small constant, times the gain, plus the shift. -/
theorem v48_at (b : Fin 64) (t : Fin 344) (q : Fin 768) :
    val_main_v48 (F := Ideal) x0 x1 x2 x3 x4 x5 x6 x7 x8 x9 x10 x11 x12 x13 x14 x15 (ix3 b t q)
      = ln (fun h => E24 (ix3 b t h)) (fun h => x14 (ix1 h)) (fun h => x15 (ix1 h)) q := by
  have h36 : idx_main_v36 (ix3 b t q) = ix3 b t (0 : Fin 1) :=
    funext fun a => by match a with | ⟨0, _⟩ => rfl | ⟨1, _⟩ => rfl | ⟨2, _⟩ => rfl
  have h41 : idx_main_v41 (ix3 b t q) = ix3 b t (0 : Fin 1) :=
    funext fun a => by match a with | ⟨0, _⟩ => rfl | ⟨1, _⟩ => rfl | ⟨2, _⟩ => rfl
  have h43 : idx_main_v43 (idx_main_v44 (ix3 b t q)) = ix1 q :=
    funext fun a => by match a with | ⟨0, _⟩ => rfl
  have h46 : idx_main_v46 (idx_main_v47 (ix3 b t q)) = ix1 q :=
    funext fun a => by match a with | ⟨0, _⟩ => rfl
  rw [val_main_v48_apply, Ideal.addf_def, val_main_v45_apply, Ideal.mulf_def, val_main_v42_apply, Ideal.mulf_def,
    val_main_v37_apply, Ideal.subf_def, val_main_v36_apply, val_main_v41_apply, val_main_v40_apply,
    Ideal.hostUnary_rsqrt_def, val_main_v39_apply, Ideal.addf_def, val_main_v38_apply, val_main_cst_4_apply,
    Ideal.ofBits_def, val_main_v44_apply, val_main_v43_apply, val_main_v47_apply, val_main_v46_apply,
    h36, h41, h43, h46, v28_at, v35_at]
  rfl

end Stages

/-- The reference's argument arrays on device `c`. -/
def argsOf (m : (ℓ : Loc nD τ sig) → Buf (Elt Ideal) ℓ) (c : Dev nD) : Args where
  x0 := m ((c.tc : Thread nD τ).loc main_arg0)
  x1 := m ((c.tc : Thread nD τ).loc main_arg1)
  x2 := m ((c.tc : Thread nD τ).loc main_arg2)
  x3 := m ((c.tc : Thread nD τ).loc main_arg3)
  ids := m ((c.tc : Thread nD τ).loc main_arg4)
  W0 := m ((c.tc : Thread nD τ).loc main_arg5)
  b0 := m ((c.tc : Thread nD τ).loc main_arg6)
  W1 := m ((c.tc : Thread nD τ).loc main_arg7)
  b1 := m ((c.tc : Thread nD τ).loc main_arg8)
  W2 := m ((c.tc : Thread nD τ).loc main_arg9)
  b2 := m ((c.tc : Thread nD τ).loc main_arg10)
  W3 := m ((c.tc : Thread nD τ).loc main_arg11)
  b3 := m ((c.tc : Thread nD τ).loc main_arg12)
  T := m ((c.tc : Thread nD τ).loc main_arg13)
  g := m ((c.tc : Thread nD τ).loc main_arg14)
  s := m ((c.tc : Thread nD τ).loc main_arg15)

/-- Where every index word is non-negative, the reference's result array is `G` of its arguments. -/
theorem result_eq (m : (ℓ : Loc nD τ sig) → Buf (Elt Ideal) ℓ) (c : Dev nD)
    (hids : ∀ i : S64x344.Idx, 0 ≤ ((m ((c.tc : Thread nD τ).loc main_arg4) : IVec S64x344 32) i).toInt) :
    Cert.ReferenceIdeal.Value.res_out0 (F := Ideal) m c = G (argsOf m c) := by
  refine (Read.val_main_v48_eq m c).trans ?_
  funext i
  obtain ⟨b, t, q, rfl⟩ : ∃ (b : Fin 64) (t : Fin 344) (q : Fin 768), i = ix3 b t q := ⟨i 0, i 1, i 2, eq_ix3 i⟩
  refine (v48_at _ _ _ _ _ _ _ _ _ _ _ _ _ _ _ _ b t q).trans ?_
  rw [G_ix3]
  unfold Gat
  refine congrArg (fun e => ln e _ _ q) (funext fun h => ?_)
  exact v24_at _ _ _ _ _ _ _ _ _ _ _ _ _ _ (m ((c.tc : Thread nD τ).loc main_arg14)) (m ((c.tc : Thread nD τ).loc main_arg15)) hids b t h

end Cert.ReferenceIdeal.OE

end
-- ==== Proof.lean ====
/-
  The certificate of the fused token-embedding kernel against its jnp reference.

  The kernel handles one sample per grid point: it forms all 344 order-table rows of the sample by ONE one-hot
  matrix product (the index words first clamped into [0, 511] on the host), then, for each of the four modalities
  (160 object, 160 relation, 16 frame and 8 action tokens), projects the modality's features by its matrix, adds the
  bias and the modality's run of table rows, and normalises every token row over the 768 hidden coordinates. The
  reference projects each modality over the whole batch, concatenates the four runs, adds the gathered table rows
  (jnp indexing: a negative index wraps by 512, and the gather clamps), and normalises.

  At the ideal values both are the same expression, operation for operation, once the table row is the same:
  a one-hot row contracted with the table selects one table row (0 · x = 0 and 1 · x = x for every extended real),
  and for a NON-NEGATIVE index word the kernel's clamp and the reference's wrap-then-clamp select the same row,
  `min(word, 511)`. For a negative word they do not (the kernel selects row 0, the reference row `word + 512`): the
  statement therefore carries, beside the finiteness of the float inputs, the precondition that every order index is
  non-negative. Finiteness itself is never used: no step of the argument fails at an infinity.

  Parts: Spec.lean (the common expression `G`), PreDecode.lean (the index precondition read out of the printed
  predicate), KernelRows.lean (the body's stored blocks at an index), KernelRun.lean (the kernel's run: its result array
  is `G` of the arguments), RefValue.lean (the reference's result is `G` of the arguments). The frames of the two
  kernel programs and the reference's run are the generated ones.
-/
import proofs.«400087_j58643483459633_3_alg».proof.Defs
import proofs.«400087_j58643483459633_3_alg».proof.Proof.Gen.Kernel
import proofs.«400087_j58643483459633_3_alg».proof.Proof.Gen.Kernel.Skeleton
import proofs.«400087_j58643483459633_3_alg».proof.Proof.Gen.Kernel.Launch
import proofs.«400087_j58643483459633_3_alg».proof.Proof.Gen.Kernel.Points
import proofs.«400087_j58643483459633_3_alg».proof.Proof.Gen.Kernel.Frame
import proofs.«400087_j58643483459633_3_alg».proof.Proof.Gen.KernelIdeal
import proofs.«400087_j58643483459633_3_alg».proof.Proof.Gen.KernelIdeal.Skeleton
import proofs.«400087_j58643483459633_3_alg».proof.Proof.Gen.KernelIdeal.Launch
import proofs.«400087_j58643483459633_3_alg».proof.Proof.Gen.KernelIdeal.Points
import proofs.«400087_j58643483459633_3_alg».proof.Proof.Gen.KernelIdeal.Frame
import proofs.«400087_j58643483459633_3_alg».proof.Proof.Gen.ReferenceIdeal
import proofs.«400087_j58643483459633_3_alg».proof.Proof.Gen.ReferenceIdeal.Run
import proofs.«400087_j58643483459633_3_alg».proof.Proof.Gen.Pre_finite_inputs
import proofs.«400087_j58643483459633_3_alg».proof.Proof.Spec
import proofs.«400087_j58643483459633_3_alg».proof.Proof.PreDecode
import proofs.«400087_j58643483459633_3_alg».proof.Proof.KernelRun
import proofs.«400087_j58643483459633_3_alg».proof.Proof.RefValue
import Idealize.ShloMosaic.Adequacy
import Idealize.ShloMosaic.Init

noncomputable section

namespace Cert.Proof

open Idealize.ShloMosaic Idealize.SL.Sem Cert.OrderEmbed

/-- The word-level kernel's frame: generated. -/
theorem frame_k : Cert.frame_Kernel := fun m ρ _ => Cert.Kernel.Gen.frame m ρ

/-- The idealized kernel's frame: generated. -/
theorem frame_ki : Cert.frame_KernelIdeal := fun m ρ _ => Cert.KernelIdeal.Gen.frame m ρ

/-- The reference's frame: its generated run, the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- From memories agreeing on the arguments, with every order index non-negative, both programs end with the result
    array at `G` of the (common) arguments and the mask at all ones. -/
theorem algebraic : Cert.algebraic_KernelIdeal_ReferenceIdeal := by
  intro m ρ m' ρ' hpre hagree
  have hids : ∀ (c : Dev Cert.KernelIdeal.nD) (i : Cert.KernelIdeal.S64x344.Idx),
      0 ≤ ((m ((c.tc : Thread Cert.KernelIdeal.nD Cert.KernelIdeal.τ).loc Cert.KernelIdeal.main_arg4) : IVec Cert.KernelIdeal.S64x344 32) i).toInt :=
    fun c i => Cert.OrderEmbed.Pre.ids_nonneg _ _ _ _ _ _ _ _ _ _ _ _ _ _ _ _ (hpre c) i
  refine ⟨fun c => G (Cert.KernelIdeal.OE.argsOf m c), _, Cert.KernelIdeal.OE.run m ρ hids, ?_⟩
  refine (θ_run Cert.ReferenceIdeal.defs _ _).mono (fun r h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12, h13, h14, h15⟩ := hagree c
    have hids' : ∀ i : Cert.ReferenceIdeal.S64x344.Idx,
        0 ≤ ((m' ((c.tc : Thread Cert.ReferenceIdeal.nD Cert.ReferenceIdeal.τ).loc Cert.ReferenceIdeal.main_arg4) : IVec Cert.ReferenceIdeal.S64x344 32) i).toInt := by
      intro i; rw [h4]; exact hids c i
    refine (Cert.ReferenceIdeal.OE.result_eq m' c hids').trans ?_
    show G (Cert.ReferenceIdeal.OE.argsOf m' c) = G (Cert.KernelIdeal.OE.argsOf m c)
    unfold Cert.ReferenceIdeal.OE.argsOf Cert.KernelIdeal.OE.argsOf
    rw [h0, h1, h2, h3, h4, h5, h6, h7, h8, h9, h10, h11, h12, h13, h14, h15]
  · rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
